-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x7 : Shape := ⟨2, ![200000, 7]⟩
abbrev S2x6400000 : Shape := ⟨2, ![2, 6400000]⟩
abbrev S7x32 : Shape := ⟨2, ![7, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x7 : S_.BroadcastsInDim S200000x7 (![] : Fin 0 → Fin S200000x7.rank)
  reducesTo_S200000x7_S_d0_1 : S200000x7.ReducesTo [0, 1] S_
  h_S_ : 0 < S_.numel
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x6400000 : S_.BroadcastsInDim S2x6400000 (![] : Fin 0 → Fin S2x6400000.rank)
  reducesTo_S2x6400000_S_d0_1 : S2x6400000.ReducesTo [0, 1] S_

variable [Facts]

def fn_part2 {F : FTy → Type} [FloatOps F] (main_arg1 : IVec S2x6400000 32) (main_v33 : IVec S_ 1) : IVec S_ 1 :=
  let main_c_12 : IVec S_ 32 := constantI S_ 32 0#32
  let main_v34 : IVec S2x6400000 32 := broadcastInDim S2x6400000 ![] bcast_S_S2x6400000 main_c_12
  let main_v35 : IVec S2x6400000 1 := cmpi .sge main_arg1 main_v34
  let main_c_13 : IVec S_ 32 := constantI S_ 32 200000#32
  let main_v36 : IVec S2x6400000 32 := broadcastInDim S2x6400000 ![] bcast_S_S2x6400000 main_c_13
  let main_v37 : IVec S2x6400000 1 := cmpi .slt main_arg1 main_v36
  let main_v38 : IVec S2x6400000 1 := andi main_v35 main_v37
  let main_c_14 : IVec S_ 1 := constantI S_ 1 1#1
  let main_v39 : IVec S_ 1 := (fun x v => Host.reduce IntOp.andi x v reducesTo_S2x6400000_S_d0_1 h_S_) main_v38 main_c_14
  let main_v40 : IVec S_ 1 := andi main_v33 main_v39
  main_v40

def fn_part1 {F : FTy → Type} [FloatOps F] (main_arg1 : IVec S2x6400000 32) (main_arg5 : FVec F S16 .f32) (main_arg6 : FVec F S16x2 .f32) (main_arg7 : FVec F S2 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_v33

def fn {F : FTy → Type} [FloatOps F] (main_arg0 : FVec F S200000x7 .f32) (main_arg1 : IVec S2x6400000 32) (main_arg2 : FVec F S7x32 .f32) (main_arg3 : FVec F S32 .f32) (main_arg4 : FVec F S32x16 .f32) (main_arg5 : FVec F S16 .f32) (main_arg6 : FVec F S16x2 .f32) (main_arg7 : FVec F S2 .f32) : IVec S_ 1 :=
  let main_v0 : FVec F S200000x7 .f32 := Host.absf main_arg0
  let main_cst : FVec F S_ .f32 := constant S_ .f32 0x7F800000#32
  let main_v1 : FVec F S200000x7 .f32 := broadcastInDim S200000x7 ![] bcast_S_S200000x7 main_cst
  let main_v2 : IVec S200000x7 1 := cmpf .olt main_v0 main_v1
  let main_c : IVec S_ 1 := constantI S_ 1 1#1
  let main_v3 : IVec S_ 1 := (fun x v => Host.reduce IntOp.andi x v reducesTo_S200000x7_S_d0_1 h_S_) main_v2 main_c
  let main_v4 : FVec F S7x32 .f32 := Host.absf main_arg2
  let main_cst_0 : FVec F S_ .f32 := constant S_ .f32 0x7F800000#32
  let main_v5 : FVec F S7x32 .f32 := broadcastInDim S7x32 ![] bcast_S_S7x32 main_cst_0
  let main_v6 : IVec S7x32 1 := cmpf .olt main_v4 main_v5
  let main_c_1 : IVec S_ 1 := constantI S_ 1 1#1
  let main_v7 : IVec S_ 1 := (fun x v => Host.reduce IntOp.andi x v reducesTo_S7x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg1 main_arg5 main_arg6 main_arg7 main_v13 main_v16
-- ==== Kernel.lean ====
abbrev S200000x7 : Shape := ⟨2, ![200000, 7]⟩
abbrev S2x6400000 : Shape := ⟨2, ![2, 6400000]⟩
abbrev S7x32 : Shape := ⟨2, ![7, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x32 : Shape := ⟨2, ![200000, 32]⟩
abbrev S20000x7 : Shape := ⟨2, ![20000, 7]⟩
abbrev S20000x32 : Shape := ⟨2, ![20000, 32]⟩
abbrev S1 : Shape := ⟨1, ![1]⟩
abbrev S1x1 : Shape := ⟨2, ![1, 1]⟩
abbrev S6600000x32 : Shape := ⟨2, ![6600000, 32]⟩
abbrev S1x32 : Shape := ⟨2, ![1, 32]⟩
abbrev S200000x16 : Shape := ⟨2, ![200000, 16]⟩
abbrev S20000x16 : Shape := ⟨2, ![20000, 16]⟩
abbrev S6600000x16 : Shape := ⟨2, ![6600000, 16]⟩
abbrev S1x16 : Shape := ⟨2, ![1, 16]⟩
abbrev S200000x2 : Shape := ⟨2, ![200000, 2]⟩
abbrev S20000x2 : Shape := ⟨2, ![20000, 2]⟩
abbrev S1x2 : Shape := ⟨2, ![1, 2]⟩

abbrev nBuf : Space → Nat
  | .hbm => 116
  | .vmem => 30
  | .smem => 0
  | _ => 0

abbrev bufTy : (tb : Table) → Fin (tcTables nBuf tb) → BufTy
  | .hbm, ⟨0, _⟩ => ⟨S200000x7, .f32⟩
  | .hbm, ⟨1, _⟩ => ⟨S2x6400000, .i32⟩
  | .hbm, ⟨2, _⟩ => ⟨S7x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S200000, .i32⟩
  | .hbm, ⟨13, _⟩ => ⟨S6600000, .i32⟩
  | .hbm, ⟨14, _⟩ => ⟨S6600000, .i32⟩
  | .hbm, ⟨15, _⟩ => ⟨S_, .f32⟩
  | .hbm, ⟨16, _⟩ => ⟨S6600000, .f32⟩
  | .hbm, ⟨17, _⟩ => ⟨S_, .f32⟩
  | .hbm, ⟨18, _⟩ => ⟨S200000, .f32⟩
  | .hbm, ⟨19, _⟩ => ⟨S6600000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S6600000, .i32⟩
  | .hbm, ⟨30, _⟩ => ⟨S6600000, .i1⟩
  | .hbm, ⟨31, _⟩ => ⟨S_, .i32⟩
  | .hbm, ⟨32, _⟩ => ⟨S6600000, .i32⟩
  | .hbm, ⟨33, _⟩ => ⟨S6600000, .i32⟩
  | .hbm, ⟨34, _⟩ => ⟨S6600000, .i32⟩
  | .hbm, ⟨35, _⟩ => ⟨S6600000x1, .i32⟩
  | .hbm, ⟨36, _⟩ => ⟨S6600000, .f32⟩
  | .hbm, ⟨37, _⟩ => ⟨S_, .i32⟩
  | .hbm, ⟨38, _⟩ => ⟨S6600000, .i32⟩
  | .hbm, ⟨39, _⟩ => ⟨S6600000, .i1⟩
  | .hbm, ⟨40, _⟩ => ⟨S_, .i32⟩
  | .hbm, ⟨41, _⟩ => ⟨S6600000, .i32⟩
  | .hbm, ⟨42, _⟩ => ⟨S6600000, .i32⟩
  | .hbm, ⟨43, _⟩ => ⟨S6600000, .i32⟩
  | .hbm, ⟨44, _⟩ => ⟨S6600000x1, .i32⟩
  | .hbm, ⟨45, _⟩ => ⟨S6600000, .f32⟩
  | .hbm, ⟨46, _⟩ => ⟨S6600000, .f32⟩
  | .hbm, ⟨47, _⟩ => ⟨S200000x32, .f32⟩
  | .hbm, ⟨48, _⟩ => ⟨S_, .i32⟩
  | .hbm, ⟨49, _⟩ => ⟨S6600000, .i32⟩
  | .hbm, ⟨50, _⟩ => ⟨S6600000, .i1⟩
  | .hbm, ⟨51, _⟩ => ⟨S_, .i32⟩
  | .hbm, ⟨52, _⟩ => ⟨S6600000, .i32⟩
  | .hbm, ⟨53, _⟩ => ⟨S6600000, .i32⟩
  | .hbm, ⟨54, _⟩ => ⟨S6600000, .i32⟩
  | .hbm, ⟨55, _⟩ => ⟨S6600000x1, .i32⟩
  | .hbm, ⟨56, _⟩ => ⟨S1, .i32⟩
  | .hbm, ⟨57, _⟩ => ⟨S_, .i32⟩
  | .hbm, ⟨58, _⟩ => ⟨S6600000x1, .i32⟩
  | .hbm, ⟨59, _⟩ => ⟨S6600000x1, .i1⟩
  | .hbm, ⟨60, _⟩ => ⟨S1x1, .i32⟩
  | .hbm, ⟨61, _⟩ => ⟨S6600000x1, .i32⟩
  | .hbm, ⟨62, _⟩ => ⟨S6600000x1, .i1⟩
  | .hbm, ⟨63, _⟩ => ⟨S6600000x1, .i1⟩
  | .hbm, ⟨64, _⟩ => ⟨S_, .i1⟩
  | .hbm, ⟨65, _⟩ => ⟨S6600000, .i1⟩
  | .hbm, ⟨66, _⟩ => ⟨S6600000x32, .f32⟩
  | .hbm, ⟨67, _⟩ => ⟨S6600000x32, .i1⟩
  | .hbm, ⟨68, _⟩ => ⟨S_, .f32⟩
  | .hbm, ⟨69, _⟩ => ⟨S6600000x32, .f32⟩
  | .hbm, ⟨70, _⟩ => ⟨S6600000x32, .f32⟩
  | .hbm, ⟨71, _⟩ => ⟨S6600000x1, .f32⟩
  | .hbm, ⟨72, _⟩ => ⟨S6600000x32, .f32⟩
  | .hbm, ⟨73, _⟩ => ⟨S6600000x32, .f32⟩
  | .hbm, ⟨74, _⟩ => ⟨S_, .f32⟩
  | .hbm, ⟨75, _⟩ => ⟨S200000x32, .f32⟩
  | .hbm, ⟨76, _⟩ => ⟨S6600000x1, .i32⟩
  | .hbm, ⟨77, _⟩ => ⟨S200000x32, .f32⟩
  | .hbm, ⟨78, _⟩ => ⟨S1x32, .f32⟩
  | .hbm, ⟨79, _⟩ => ⟨S200000x32, .f32⟩
  | .hbm, ⟨80, _⟩ => ⟨S200000x16, .f32⟩
  | .hbm, ⟨81, _⟩ => ⟨S_, .i32⟩
  | .hbm, ⟨82, _⟩ => ⟨S6600000, .i32⟩
  | .hbm, ⟨83, _⟩ => ⟨S6600000, .i1⟩
  | .hbm, ⟨84, _⟩ => ⟨S_, .i32⟩
  | .hbm, ⟨85, _⟩ => ⟨S6600000, .i32⟩
  | .hbm, ⟨86, _⟩ => ⟨S6600000, .i32⟩
  | .hbm, ⟨87, _⟩ => ⟨S6600000, .i32⟩
  | .hbm, ⟨88, _⟩ => ⟨S6600000x1, .i32⟩
  | .hbm, ⟨89, _⟩ => ⟨S1, .i32⟩
  | .hbm, ⟨90, _⟩ => ⟨S_, .i32⟩
  | .hbm, ⟨91, _⟩ => ⟨S6600000x1, .i32⟩
  | .hbm, ⟨92, _⟩ => ⟨S6600000x1, .i1⟩
  | .hbm, ⟨93, _⟩ => ⟨S1x1, .i32⟩
  | .hbm, ⟨94, _⟩ => ⟨S6600000x1, .i32⟩
  | .hbm, ⟨95, _⟩ => ⟨S6600000x1, .i1⟩
  | .hbm, ⟨96, _⟩ => ⟨S6600000x1, .i1⟩
  | .hbm, ⟨97, _⟩ => ⟨S_, .i1⟩
  | .hbm, ⟨98, _⟩ => ⟨S6600000, .i1⟩
  | .hbm, ⟨99, _⟩ => ⟨S6600000x16, .f32⟩
  | .hbm, ⟨100, _⟩ => ⟨S6600000x16, .i1⟩
  | .hbm, ⟨101, _⟩ => ⟨S_, .f32⟩
  | .hbm, ⟨102, _⟩ => ⟨S6600000x16, .f32⟩
  | .hbm, ⟨103, _⟩ => ⟨S6600000x16, .f32⟩
  | .hbm, ⟨104, _⟩ => ⟨S6600000x1, .f32⟩
  | .hbm, ⟨105, _⟩ => ⟨S6600000x16, .f32⟩
  | .hbm, ⟨106, _⟩ => ⟨S6600000x16, .f32⟩
  | .hbm, ⟨107, _⟩ => ⟨S_, .f32⟩
  | .hbm, ⟨108, _⟩ => ⟨S200000x16, .f32⟩
  | .hbm, ⟨109, _⟩ => ⟨S6600000x1, .i32⟩
  | .hbm, ⟨110, _⟩ => ⟨S200000x16, .f32⟩
  | .hbm, ⟨111, _⟩ => ⟨S1x16, .f32⟩
  | .hbm, ⟨112, _⟩ => ⟨S200000x16, .f32⟩
  | .hbm, ⟨113, _⟩ => ⟨S200000x2, .f32⟩
  | .hbm, ⟨114, _⟩ => ⟨S1x2, .f32⟩
  | .hbm, ⟨115, _⟩ => ⟨S200000x2, .f32⟩
  | .local _ .vmem, ⟨0, _⟩ => ⟨S20000x7, .f32⟩
  | .local _ .vmem, ⟨1, _⟩ => ⟨S20000x7, .f32⟩
  | .local _ .vmem, ⟨2, _⟩ => ⟨S7x32, .f32⟩
  | .local _ .vmem, ⟨3, _⟩ => ⟨S20000x32, .f32⟩
  | .local _ .vmem, ⟨4, _⟩ => ⟨S20000x32, .f32⟩
  | .local _ .vmem, ⟨5, _⟩ => ⟨S20000x32, .f32⟩
  | .local _ .vmem, ⟨6, _⟩ => ⟨S20000x32, .f32⟩
  | .local _ .vmem, ⟨7, _⟩ => ⟨S1x32, .f32⟩
  | .local _ .vmem, ⟨8, _⟩ => ⟨S20000x32, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S32x16, .f32⟩
  | .local _ .vmem, ⟨13, _⟩ => ⟨S20000x16, .f32⟩
  | .local _ .vmem, ⟨14, _⟩ => ⟨S20000x16, .f32⟩
  | .local _ .vmem, ⟨15, _⟩ => ⟨S20000x16, .f32⟩
  | .local _ .vmem, ⟨16, _⟩ => ⟨S20000x16, .f32⟩
  | .local _ .vmem, ⟨17, _⟩ => ⟨S1x16, .f32⟩
  | .local _ .vmem, ⟨18, _⟩ => ⟨S20000x16, .f32⟩
  | .local _ .vmem, ⟨19, _⟩ => ⟨S20000x16, .f32⟩
  | .local _ .vmem, ⟨20, _⟩ => ⟨S20000x16, .f32⟩
  | .local _ .vmem, ⟨21, _⟩ => ⟨S20000x16, .f32⟩
  | .local _ .vmem, ⟨22, _⟩ => ⟨S16x2, .f32⟩
  | .local _ .vmem, ⟨23, _⟩ => ⟨S20000x2, .f32⟩
  | .local _ .vmem, ⟨24, _⟩ => ⟨S20000x2, .f32⟩
  | .local _ .vmem, ⟨25, _⟩ => ⟨S20000x2, .f32⟩
  | .local _ .vmem, ⟨26, _⟩ => ⟨S20000x2, .f32⟩
  | .local _ .vmem, ⟨27, _⟩ => ⟨S1x2, .f32⟩
  | .local _ .vmem, ⟨28, _⟩ => ⟨S20000x2, .f32⟩
  | .local _ .vmem, ⟨29, _⟩ => ⟨S20000x2, .f32⟩
  | _, _ => ⟨S200000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_7 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S20000x7_S20000x7_0_0 : ∀ a, (![0, 0] : Fin 2 → Nat) a + S20000x7.size a ≤ S20000x7.size a
  h_S20000x7 : 0 < S20000x7.numel
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S20000x32_S20000x32_0_0 : ∀ a, (![0, 0] : Fin 2 → Nat) a + S20000x32.size a ≤ S20000x32.size a
  h_S20000x32 : 0 < S20000x32.numel
  bcast_S_S6600000x1 : S_.BroadcastsInDim S6600000x1 (![] : Fin 0 → Fin S6600000x1.rank)
  bcast_S1_S1x1_1 : S1.BroadcastsInDim S1x1 (![1] : Fin 1 → Fin S1x1.rank)
  bcast_S1x1_S6600000x1_0_1 : S1x1.BroadcastsInDim S6600000x1 (![0, 1] : Fin 2 → Fin S6600000x1.rank)
  reducesTo_S6600000x1_S6600000_d1 : S6600000x1.ReducesTo [1] S6600000
  h_S_ : 0 < S_.numel
  bcast_S6600000_S6600000x32_0 : S6600000.BroadcastsInDim S6600000x32 (![0] : Fin 1 → Fin S6600000x32.rank)
  bcast_S_S6600000x32 : S_.BroadcastsInDim S6600000x32 (![] : Fin 0 → Fin S6600000x32.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  shapeCasts_S20000x32_S20000x32 : S20000x32.ShapeCasts S20000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S32x16_S32x16_0_0 : ∀ a, (![0, 0] : Fin 2 → Nat) a + S32x16.size a ≤ S32x16.size a
  h_S32x16 : 0 < S32x16.numel
  inb_S20000x16_S20000x16_0_0 : ∀ a, (![0, 0] : Fin 2 → Nat) a + S20000x16.size a ≤ S20000x16.size a
  h_S20000x16 : 0 < S20000x16.numel
  bcast_S6600000_S6600000x16_0 : S6600000.BroadcastsInDim S6600000x16 (![0] : Fin 1 → Fin S6600000x16.rank)
  bcast_S_S6600000x16 : S_.BroadcastsInDim S6600000x16 (![] : Fin 0 → Fin S6600000x16.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x2_S16x2_0_0 : ∀ a, (![0, 0] : Fin 2 → Nat) a + S16x2.size a ≤ S16x2.size a
  h_S16x2 : 0 < S16x2.numel
  inb_S20000x2_S20000x2_0_0 : ∀ a, (![0, 0] : Fin 2 → Nat) a + S20000x2.size a ≤ S20000x2.size a
  h_S20000x2 : 0 < S20000x2.numel
  shapeCasts_S2_S1x2 : S2.ShapeCasts S1x2
  shapeCasts_S20000x2_S20000x2 : S20000x2.ShapeCasts S20000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S20000x2 : S1x2.Broadcasts S20000x2
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S20000x7_S7x32_S20000x32_1_0_0_1_n_n_wf : DotDims.WF S20000x7 S7x32 S20000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S20000x32_S32x16_S20000x16_1_0_0_1_n_n_wf : DotDims.WF S20000x32 S32x16 S20000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S20000x16_S16x2_S20000x2_1_0_0_1_n_n_wf : DotDims.WF S20000x16 S16x2 S20000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x7.size a ≤ S200000x7.size a
  hwx0_0 : ∀ i : grid0.Coords, EltTy.bits .f32 = 32 ∨ (Rect.block (s := S200000x7) S20000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x32.size a ≤ S7x32.size a
  hwx0_1 : ∀ i : grid0.Coords, EltTy.bits .f32 = 32 ∨ (Rect.block (s := S7x32) S7x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S200000x32.size a
  hwx0_2 : ∀ i : grid0.Coords, EltTy.bits .f32 = 32 ∨ (Rect.block (s := S200000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S200000x32.size a
  hwx1_0 : ∀ i : grid1.Coords, EltTy.bits .f32 = 32 ∨ (Rect.block (s := S200000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S200000x32.size a
  hwx1_2 : ∀ i : grid1.Coords, EltTy.bits .f32 = 32 ∨ (Rect.block (s := S200000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S200000x32.size a
  hwx2_0 : ∀ i : grid2.Coords, EltTy.bits .f32 = 32 ∨ (Rect.block (s := S200000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x16.size a ≤ S200000x16.size a
  hwx2_2 : ∀ i : grid2.Coords, EltTy.bits .f32 = 32 ∨ (Rect.block (s := S200000x16) S20000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x16.size a ≤ S200000x16.size a
  hwx3_0 : ∀ i : grid3.Coords, EltTy.bits .f32 = 32 ∨ (Rect.block (s := S200000x16) S20000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x16.size a ≤ S200000x16.size a
  hwx3_2 : ∀ i : grid3.Coords, EltTy.bits .f32 = 32 ∨ (Rect.block (s := S200000x16) S20000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x16.size a ≤ S200000x16.size a
  hwx4_0 : ∀ i : grid4.Coords, EltTy.bits .f32 = 32 ∨ (Rect.block (s := S200000x16) S20000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x2.size a ≤ S16x2.size a
  hwx4_1 : ∀ i : grid4.Coords, EltTy.bits .f32 = 32 ∨ (Rect.block (s := S16x2) S16x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x2.size a ≤ S200000x2.size a
  hwx4_2 : ∀ i : grid4.Coords, EltTy.bits .f32 = 32 ∨ (Rect.block (s := S200000x2) S20000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x2.size a ≤ S200000x2.size a
  hwx5_0 : ∀ i : grid5.Coords, EltTy.bits .f32 = 32 ∨ (Rect.block (s := S200000x2) S20000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x2.size a ≤ S200000x2.size a
  hwx5_2 : ∀ i : grid5.Coords, EltTy.bits .f32 = 32 ∨ (Rect.block (s := S200000x2) S20000x2.size (cc5_transform_2 i) (hinb5_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S20000x7_S7x32_S20000x32_1_0_0_1_n_n : DotDims S20000x7 S7x32 S20000x32 where
  lhsContracting := [1]
  rhsContracting := [0]
  lhsNonContracting := [0]
  rhsNonContracting := [1]
  lhsBatch := []
  rhsBatch := []
  wf := dot_S20000x7_S7x32_S20000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S20000x16_S16x2_S20000x2_1_0_0_1_n_n : DotDims S20000x16 S16x2 S20000x2 where
  lhsContracting := [1]
  rhsContracting := [0]
  lhsNonContracting := [0]
  rhsNonContracting := [1]
  lhsBatch := []
  rhsBatch := []
  wf := dot_S20000x16_S16x2_S20000x2_1_0_0_1_n_n_wf

abbrev win0_0 : Pipeline.Window sig grid0 :=
  Pipeline.Window.ofSpec (Memref.whole main_arg0) S20000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S20000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S20000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S20000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S20000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S20000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S20000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S20000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S200000x7 : Shape := ⟨2, ![200000, 7]⟩
abbrev S2x6400000 : Shape := ⟨2, ![2, 6400000]⟩
abbrev S7x32 : Shape := ⟨2, ![7, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x32 : Shape := ⟨2, ![200000, 32]⟩
abbrev S6600000x32 : Shape := ⟨2, ![6600000, 32]⟩
abbrev S1x32 : Shape := ⟨2, ![1, 32]⟩
abbrev S200000x16 : Shape := ⟨2, ![200000, 16]⟩
abbrev S6600000x16 : Shape := ⟨2, ![6600000, 16]⟩
abbrev S1x16 : Shape := ⟨2, ![1, 16]⟩
abbrev S200000x2 : Shape := ⟨2, ![200000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S200000x7, .f32⟩
  | 1 => ⟨S2x6400000, .i32⟩
  | 2 => ⟨S7x32, .f32⟩
  | 3 => ⟨S32, .f32⟩
  | 4 => ⟨S32x16, .f32⟩
  | 5 => ⟨S16, .f32⟩
  | 6 => ⟨S16x2, .f32⟩
  | 7 => ⟨S2, .f32⟩
  | 8 => ⟨S1x6400000, .i32⟩
  | 9 => ⟨S6400000, .i32⟩
  | 10 => ⟨S1x6400000, .i32⟩
  | 11 => ⟨S6400000, .i32⟩
  | 12 => ⟨S200000, .i32⟩
  | 13 => ⟨S6600000, .i32⟩
  | 14 => ⟨S6600000, .i32⟩
  | 15 => ⟨S_, .f32⟩
  | 16 => ⟨S6600000, .f32⟩
  | 17 => ⟨S_, .f32⟩
  | 18 => ⟨S200000, .f32⟩
  | 19 => ⟨S6600000x1, .i32⟩
  | 20 => ⟨S200000, .f32⟩
  | 21 => ⟨S_, .f32⟩
  | 22 => ⟨S200000, .f32⟩
  | 23 => ⟨S200000, .i1⟩
  | 24 => ⟨S200000, .f32⟩
  | 25 => ⟨S_, .f32⟩
  | 26 => ⟨S_, .f32⟩
  | 27 => ⟨S200000, .f32⟩
  | 28 => ⟨S200000, .f32⟩
  | 29 => ⟨S200000x32, .f32⟩
  | 30 => ⟨S_, .i32⟩
  | 31 => ⟨S6600000, .i32⟩
  | 32 => ⟨S6600000, .i1⟩
  | 33 => ⟨S_, .i32⟩
  | 34 => ⟨S6600000, .i32⟩
  | 35 => ⟨S6600000, .i32⟩
  | 36 => ⟨S6600000, .i32⟩
  | 37 => ⟨S6600000x1, .i32⟩
  | 38 => ⟨S6600000, .f32⟩
  | 39 => ⟨S_, .i32⟩
  | 40 => ⟨S6600000, .i32⟩
  | 41 => ⟨S6600000, .i1⟩
  | 42 => ⟨S_, .i32⟩
  | 43 => ⟨S6600000, .i32⟩
  | 44 => ⟨S6600000, .i32⟩
  | 45 => ⟨S6600000, .i32⟩
  | 46 => ⟨S6600000x1, .i32⟩
  | 47 => ⟨S6600000, .f32⟩
  | 48 => ⟨S6600000, .f32⟩
  | 49 => ⟨S_, .i32⟩
  | 50 => ⟨S6600000, .i32⟩
  | 51 => ⟨S6600000, .i1⟩
  | 52 => ⟨S_, .i32⟩
  | 53 => ⟨S6600000, .i32⟩
  | 54 => ⟨S6600000, .i32⟩
  | 55 => ⟨S6600000, .i32⟩
  | 56 => ⟨S6600000x1, .i32⟩
  | 57 => ⟨S6600000x32, .f32⟩
  | 58 => ⟨S6600000x1, .f32⟩
  | 59 => ⟨S6600000x32, .f32⟩
  | 60 => ⟨S6600000x32, .f32⟩
  | 61 => ⟨S_, .f32⟩
  | 62 => ⟨S200000x32, .f32⟩
  | 63 => ⟨S6600000x1, .i32⟩
  | 64 => ⟨S200000x32, .f32⟩
  | 65 => ⟨S1x32, .f32⟩
  | 66 => ⟨S200000x32, .f32⟩
  | 67 => ⟨S200000x32, .f32⟩
  | 68 => ⟨S_, .f32⟩
  | 69 => ⟨S200000x32, .f32⟩
  | 70 => ⟨S200000x32, .f32⟩
  | 71 => ⟨S200000, .i32⟩
  | 72 => ⟨S6600000, .i32⟩
  | 73 => ⟨S6600000, .i32⟩
  | 74 => ⟨S_, .f32⟩
  | 75 => ⟨S6600000, .f32⟩
  | 76 => ⟨S_, .f32⟩
  | 77 => ⟨S200000, .f32⟩
  | 78 => ⟨S6600000x1, .i32⟩
  | 79 => ⟨S200000, .f32⟩
  | 80 => ⟨S_, .f32⟩
  | 81 => ⟨S200000, .f32⟩
  | 82 => ⟨S200000, .i1⟩
  | 83 => ⟨S200000, .f32⟩
  | 84 => ⟨S_, .f32⟩
  | 85 => ⟨S_, .f32⟩
  | 86 => ⟨S200000, .f32⟩
  | 87 => ⟨S200000, .f32⟩
  | 88 => ⟨S200000x16, .f32⟩
  | 89 => ⟨S_, .i32⟩
  | 90 => ⟨S6600000, .i32⟩
  | 91 => ⟨S6600000, .i1⟩
  | 92 => ⟨S_, .i32⟩
  | 93 => ⟨S6600000, .i32⟩
  | 94 => ⟨S6600000, .i32⟩
  | 95 => ⟨S6600000, .i32⟩
  | 96 => ⟨S6600000x1, .i32⟩
  | 97 => ⟨S6600000, .f32⟩
  | 98 => ⟨S_, .i32⟩
  | 99 => ⟨S6600000, .i32⟩
  | 100 => ⟨S6600000, .i1⟩
  | 101 => ⟨S_, .i32⟩
  | 102 => ⟨S6600000, .i32⟩
  | 103 => ⟨S6600000, .i32⟩
  | 104 => ⟨S6600000, .i32⟩
  | 105 => ⟨S6600000x1, .i32⟩
  | 106 => ⟨S6600000, .f32⟩
  | 107 => ⟨S6600000, .f32⟩
  | 108 => ⟨S_, .i32⟩
  | 109 => ⟨S6600000, .i32⟩
  | 110 => ⟨S6600000, .i1⟩
  | 111 => ⟨S_, .i32⟩
  | 112 => ⟨S6600000, .i32⟩
  | 113 => ⟨S6600000, .i32⟩
  | 114 => ⟨S6600000, .i32⟩
  | 115 => ⟨S6600000x1, .i32⟩
  | 116 => ⟨S6600000x16, .f32⟩
  | 117 => ⟨S6600000x1, .f32⟩
  | 118 => ⟨S6600000x16, .f32⟩
  | 119 => ⟨S6600000x16, .f32⟩
  | 120 => ⟨S_, .f32⟩
  | 121 => ⟨S200000x16, .f32⟩
  | 122 => ⟨S6600000x1, .i32⟩
  | 123 => ⟨S200000x16, .f32⟩
  | 124 => ⟨S1x16, .f32⟩
  | 125 => ⟨S200000x16, .f32⟩
  | 126 => ⟨S200000x16, .f32⟩
  | 127 => ⟨S_, .f32⟩
  | _ => ⟨S200000x7, .f32⟩

abbrev hbmTy0_1 (i : Nat) : BufTy := match i % 128 with
  | 0 => ⟨S200000x16, .f32⟩
  | 1 => ⟨S200000x16, .f32⟩
  | 2 => ⟨S200000x2, .f32⟩
  | 3 => ⟨S1x2, .f32⟩
  | 4 => ⟨S200000x2, .f32⟩
  | 5 => ⟨S200000x2, .f32⟩
  | _ => ⟨S200000x7, .f32⟩

abbrev hbmTy (i : Nat) : BufTy := match i / 128 with
  | 0 => hbmTy0_0 i
  | 1 => hbmTy0_1 i
  | _ => ⟨S200000x7, .f32⟩

abbrev bufTy : (tb : Table) → Fin (tcTables nBuf tb) → BufTy
  | .hbm, ⟨i, _⟩ => hbmTy i
  | _, _ => ⟨S200000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6600000x1_S6600000_n_0_0_1_wf : ScatterDims.WF S200000 S6600000x1 S6600000 [] [0] [0] 1
  dot_S200000x7_S7x32_S200000x32_1_0_0_1_n_n_wf : DotDims.WF S200000x7 S7x32 S200000x32 [1] [0] [0] [1] [] []
  gather_S200000_S6600000x1_S6600000_n_0_n_n_0_1_1_wf : GatherDims.WF S200000 S6600000x1 S6600000 [] [0] [] [0] [] 1 ![1]
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S200000x32_S32x16_S200000x16_1_0_0_1_n_n_wf : DotDims.WF S200000x32 S32x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S200000x7_S7x32_S200000x32_1_0_0_1_n_n : DotDims S200000x7 S7x32 S200000x32 where
  lhsContracting := [1]
  rhsContracting := [0]
  lhsNonContracting := [0]
  rhsNonContracting := [1]
  lhsBatch := []
  rhsBatch := []
  wf := dot_S200000x7_S7x32_S200000x32_1_0_0_1_n_n_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

class Facts : Prop extends Facts₀ where

variable [Facts]
-- ==== Proof.ReadEntry.lean ====
import proofs.«423043_j71803263254611_2_alg».proof.Proof.Gen.KernelIdeal.Frame
import proofs.«423043_j71803263254611_2_alg».proof.Proof.RefRead
import Idealize.ShloMosaic.Lib.StableHlo.Run

set_option maxRecDepth 16384
set_option maxHeartbeats 4000000

noncomputable section
namespace Cert.Bridge
open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ) (ρ : Dev nD → PrngReg)

/-! ## Region 0's entry: what the host operations before the first matrix product leave

The source and target index vectors (row 0 and row 1 of `edge_index`, each followed by the self-loop indices
`0 … 199999`) and the symmetric normalisation `dinv[s] · dinv[d]` are computed by the same host operations in both
programs: at any float family each is, term for term, the reference's stage of `edge_index`. -/

/-- The source index vector. -/
theorem s3 (c : Dev nD) : W3 (F := F) m ρ c (Proc.devRef .tc main_v5) = Cert.ReferenceIdeal.ReadP.val_main_v5 (F := F) (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results
  try rfl
/-- The target index vector. -/
theorem d3 (c : Dev nD) : W3 (F := F) m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results
  try rfl
/-- The edge weights `dinv[s] · dinv[d]`. -/
theorem n3 (c : Dev nD) : W3 (F := F) m ρ c (Proc.devRef .tc main_v29) = Cert.ReferenceIdeal.ReadP.val_main_v30 (F := F) (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results
  try rfl
/-- The node features are untouched. -/
theorem x3 (c : Dev nD) : W3 (F := F) m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results
  try rfl
/-- The first weight matrix is untouched. -/
theorem w3 (c : Dev nD) : W3 (F := F) m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results
  try rfl

end Cert.Bridge
end
-- ==== Proof.TakeInRange.lean ====
import proofs.«423043_j71803263254611_2_alg».proof.Proof.Gen.KernelIdeal
import Idealize.ShloMosaic.Lib.StableHlo.Predicate
import Idealize.ShloMosaic.Lib.ValueIdx
import Idealize.ShloMosaic.Lib.Pipeline.Value
import Idealize.ShloMosaic.Lib.ReduceAll

set_option maxRecDepth 16384

noncomputable section

namespace Cert.Bridge

open Idealize.ShloMosaic Idealize.ShloMosaic.TcCoe Idealize.SL.Sem
open Cert.KernelIdeal Cert.KernelIdeal.Facts₀

/-! ## Words -/

/-- A word whose signed reading is non-negative is not signed-less-than zero, so the
    normalising select (add the table length to a negative index) keeps the word. -/
theorem norm_word (w : BitVec 32) (h0 : 0 ≤ w.toInt) :
    Scalar.select (IntOp.cmpi .slt w 0#32) (IntOp.addi w 200000#32) w = w := by
  have hz : (0#32 : BitVec 32).toInt = 0 := by decide
  have hlt : w.slt 0#32 = false := by
    simp only [BitVec.slt, hz, decide_eq_false_iff_not]; omega
  have hc : IntOp.cmpi .slt w 0#32 = 0#1 := by
    unfold IntOp.cmpi; simp only [hlt]; rfl
  rw [hc]; rfl

/-- A word whose signed reading lies in [0, 200000) passes both bound tests: it is signed-at-least 0
    and signed-at-most 199999, and the conjunction of the two bits is 1. -/
theorem inrange_word (w : BitVec 32) (h0 : 0 ≤ w.toInt) (h1 : w.toInt < 200000) :
    IntOp.andi (IntOp.cmpi .sge w 0#32) (IntOp.cmpi .sle w 199999#32) = 1#1 := by
  have hz : (0#32 : BitVec 32).toInt = 0 := by decide
  have hh : (199999#32 : BitVec 32).toInt = 199999 := by decide
  have hge : (0#32 : BitVec 32).sle w = true := by
    simp only [BitVec.sle, hz, decide_eq_true_eq]; omega
  have hle : w.sle 199999#32 = true := by
    simp only [BitVec.sle, hh, decide_eq_true_eq]; omega
  have e1 : IntOp.cmpi .sge w 0#32 = 1#1 := by
    unfold IntOp.cmpi; simp only [hge]; rfl
  have e2 : IntOp.cmpi .sle w 199999#32 = 1#1 := by
    unfold IntOp.cmpi; simp only [hle]; rfl
  rw [e1, e2]; decide

/-- A left fold by the bitwise and, started at 1 over bits that are all 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-! ## Arrays -/

/-- A select under a mask that is 1 everywhere is its first branch. -/
theorem select_of_all_ones {α : Type} {S : Shape} (c : IVec S 1) (a b : S.Idx → α)
    (hc : ∀ i, c i = 1#1) : select c a b = a := by
  funext i
  show Scalar.select (c i) (a i) (b i) = a i
  rw [hc i]; rfl

/-- The index normalised as the take does it: a negative word gets the table length added. -/
abbrev normIdx (s : IVec S6600000 32) : IVec S6600000 32 :=
  select (cmpi .slt s (broadcastInDim S6600000 ![] bcast_S_S6600000 (constantI S_ 32 0#32)))
    (addi s (broadcastInDim S6600000 ![] bcast_S_S6600000 (constantI S_ 32 200000#32))) s

/-- The normalised indices as a one-column table of start indices. -/
abbrev idxCol (s : IVec S6600000 32) : IVec S6600000x1 32 :=
  broadcastInDim S6600000x1 ![0] bcast_S6600000_S6600000x1_0 (normIdx s)

/-- The take's validity mask: per row, the and over the unit axis of the two bound tests on the
    normalised index. -/
abbrev inBounds (s : IVec S6600000 32) : IVec S6600000 1 :=
  Host.reduce IntOp.andi
    (andi (cmpi .sge (idxCol s) (broadcastInDim S6600000x1 ![] bcast_S_S6600000x1 (constantI S_ 32 0#32)))
          (cmpi .sle (idxCol s) (broadcastInDim S6600000x1 ![0, 1] bcast_S1x1_S6600000x1_0_1 (broadcastInDim S1x1 ![1] bcast_S1_S1x1_1 (constantI S1 32 199999#32)))))
    (constantI S_ 1 1#1) reducesTo_S6600000x1_S6600000_d1 h_S_

/-- A non-negative index word is its own normalisation. -/
theorem normIdx_apply (s : IVec S6600000 32) (j : S6600000.Idx) (h0 : 0 ≤ (s j).toInt) :
    normIdx s j = s j := by
  show Scalar.select (IntOp.cmpi .slt (s j) 0#32) (IntOp.addi (s j) 200000#32) (s j) = s j
  exact norm_word _ h0

/-- An entry of the one-column table is an entry of the normalised index vector. -/
theorem idxCol_apply (s : IVec S6600000 32) (i : S6600000x1.Idx) :
    ∃ j : S6600000.Idx, idxCol s i = normIdx s j := ⟨_, rfl⟩

/-- With every index word in [0, 200000) the two bound tests hold at every entry of the column. -/
theorem tests_all_ones (s : IVec S6600000 32)
    (hs : ∀ j : S6600000.Idx, 0 ≤ (s j).toInt ∧ (s j).toInt < 200000) (i : S6600000x1.Idx) :
    andi (cmpi .sge (idxCol s) (broadcastInDim S6600000x1 ![] bcast_S_S6600000x1 (constantI S_ 32 0#32)))
        (cmpi .sle (idxCol s) (broadcastInDim S6600000x1 ![0, 1] bcast_S1x1_S6600000x1_0_1 (broadcastInDim S1x1 ![1] bcast_S1_S1x1_1 (constantI S1 32 199999#32)))) i
      = 1#1 := by
  obtain ⟨j, hj⟩ := idxCol_apply s i
  show IntOp.andi (IntOp.cmpi .sge (idxCol s i) 0#32) (IntOp.cmpi .sle (idxCol s i) 199999#32) = 1#1
  rw [hj, normIdx_apply s j (hs j).1]
  exact inrange_word _ (hs j).1 (hs j).2

/-- With every index word in [0, 200000) the validity mask is 1 at every row. -/
theorem inBounds_all_ones (s : IVec S6600000 32)
    (hs : ∀ j : S6600000.Idx, 0 ≤ (s j).toInt ∧ (s j).toInt < 200000) (k : S6600000.Idx) :
    inBounds s k = 1#1 := by
  show Host.reduce IntOp.andi _ (constantI S_ 1 1#1) reducesTo_S6600000x1_S6600000_d1 h_S_ k = 1#1
  rw [Host.reduce_eq_foldl]
  exact foldl_andi_ones _ (tests_all_ones s hs) _

/-- The take over the 32-column table: with every index word in [0, 200000) the mask is all ones and the
    select returns the gathered rows. -/
theorem take_eq_gather32 (h : FVec Ideal S200000x32 .f32) (s : IVec S6600000 32)
    (hs : ∀ j : S6600000.Idx, 0 ≤ (s j).toInt ∧ (s j).toInt < 200000) :
    select (broadcastInDim S6600000x32 ![0] bcast_S6600000_S6600000x32_0 (inBounds s))
        (Host.gather gather_S200000x32_S6600000x1_S6600000x32_1_0_n_n_0_1_132 h (idxCol s))
        (broadcastInDim S6600000x32 ![] bcast_S_S6600000x32 (constant (F := Ideal) S_ .f32 0x7FC00000#32))
      = Host.gather gather_S200000x32_S6600000x1_S6600000x32_1_0_n_n_0_1_132 h (idxCol s) :=
  select_of_all_ones _ _ _ fun i => inBounds_all_ones s hs _

/-- The take over the 16-column table, likewise. -/
theorem take_eq_gather16 (h : FVec Ideal S200000x16 .f32) (s : IVec S6600000 32)
    (hs : ∀ j : S6600000.Idx, 0 ≤ (s j).toInt ∧ (s j).toInt < 200000) :
    select (broadcastInDim S6600000x16 ![0] bcast_S6600000_S6600000x16_0 (inBounds s))
        (Host.gather gather_S200000x16_S6600000x1_S6600000x16_1_0_n_n_0_1_116 h (idxCol s))
        (broadcastInDim S6600000x16 ![] bcast_S_S6600000x16 (constant (F := Ideal) S_ .f32 0x7FC00000#32))
      = Host.gather gather_S200000x16_S6600000x1_S6600000x16_1_0_n_n_0_1_116 h (idxCol s) :=
  select_of_all_ones _ _ _ fun i => inBounds_all_ones s hs _

end Cert.Bridge

end
-- ==== Proof.Casts.lean ====
import proofs.«423043_j71803263254611_2_alg».proof.Proof.Gen.KernelIdeal
import Idealize.ShloMosaic.Lib.StableHlo

set_option maxRecDepth 16384

noncomputable section
namespace Cert.Bridge
open Idealize.ShloMosaic Idealize.ShloMosaic.TcCoe Idealize.SL.Sem Idealize.ShloMosaic.StableHlo
open Cert.KernelIdeal

/-! ## Typed references: contents at the value's type and at the buffer's type

The gather function's operations name their buffers as typed references, whose contents are carried between the
buffer's declared type and the value's along an equation of types. Both ways round that transport is the identity. -/

variable {F : FTy → Type} [FloatOps F]

/-- Contents carried to a typed reference's buffer type and back are the contents. -/
theorem ofBuf_toBuf {sig : RefSig} {T : BufTy} {Val : EltTy → Type} (x : StableHlo.TRef sig T) (v : T.Contents Val) :
    x.ofBuf (x.toBuf v) = v := by
  cases x with
  | mk r h d u => cases h; rfl

/-- The source-index buffer read at its value type is itself. -/
theorem ofBuf_v5 (v : (main_v5 : Ref sig .tc).ty.Contents (Elt F)) :
    (StableHlo.TRef.of main_v5 : StableHlo.TRef sig ⟨S6600000, .i32⟩).ofBuf v = v := rfl
/-- The first product's array read at its value type is itself. -/
theorem ofBuf_v30 (v : (main_v30 : Ref sig .tc).ty.Contents (Elt F)) :
    (StableHlo.TRef.of main_v30 : StableHlo.TRef sig ⟨S200000x32, .f32⟩).ofBuf v = v := rfl
/-- The second product's array read at its value type is itself. -/
theorem ofBuf_v40 (v : (main_v40 : Ref sig .tc).ty.Contents (Elt F)) :
    (StableHlo.TRef.of main_v40 : StableHlo.TRef sig ⟨S200000x16, .f32⟩).ofBuf v = v := rfl
/-- The gathered rows written at their buffer's type are themselves. -/
theorem toBuf_v31 (v : (⟨S6600000x32, .f32⟩ : BufTy).Contents (Elt F)) :
    (StableHlo.TRef.of main_v31 : StableHlo.TRef sig ⟨S6600000x32, .f32⟩).toBuf v = v := rfl
theorem toBuf_v41 (v : (⟨S6600000x16, .f32⟩ : BufTy).Contents (Elt F)) :
    (StableHlo.TRef.of main_v41 : StableHlo.TRef sig ⟨S6600000x16, .f32⟩).toBuf v = v := rfl

end Cert.Bridge
end
-- ==== Proof.ReadLayer1.lean ====
import proofs.«423043_j71803263254611_2_alg».proof.Proof.Gen.KernelIdeal.Frame
import proofs.«423043_j71803263254611_2_alg».proof.Proof.TakeInRange
import Idealize.ShloMosaic.Lib.StableHlo.Run
import proofs.«423043_j71803263254611_2_alg».proof.Proof.Casts

set_option maxRecDepth 16384
set_option maxHeartbeats 4000000

noncomputable section
namespace Cert.Bridge
open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ) (ρ : Dev nD → PrngReg)

/-! ## Layer 1 between the first matrix product and the bias stage: the host operations read back

At any float family: the gathered rows (with the default out-of-range fill still in place), the scatter-add of the
weighted rows, and the bias reshaped to a row, each as its operation of the buffers the stretch finds; and the index
vectors and edge weights, which nothing after region 0's entry writes, carried from there. -/

theorem v5_W4 (c : Dev nD) : W4 (F := F) m ρ c (Proc.devRef .tc main_v5) = W3 (F := F) m ρ c (Proc.devRef .tc main_v5) := by
  have h4 : W4 (F := F) m ρ c (Proc.devRef .tc main_v5) = W3 (F := F) m ρ c (Proc.devRef .tc main_v5) := W4_of_ne m ρ c main_v5 (by decide)
  exact h4
/-- The rows of `x · W1` gathered at the source indices, under the in-bounds mask. -/
theorem take1_read (c : Dev nD) : W5 (F := F) m ρ c (Proc.devRef .tc main_v31) = select (broadcastInDim S6600000x32 ![0] bcast_S6600000_S6600000x32_0 (inBounds (W4 (F := F) m ρ c (Proc.devRef .tc main_v5))))
      (Host.gather gather_S200000x32_S6600000x1_S6600000x32_1_0_n_n_0_1_132 (W4 (F := F) m ρ c (Proc.devRef .tc main_v30)) (idxCol (W4 (F := F) m ρ c (Proc.devRef .tc main_v5))))
      (broadcastInDim S6600000x32 ![] bcast_S_S6600000x32 (constant (F := F) S_ .f32 0x7FC00000#32)) := by
  show StableHlo.after hostOps1 (W4 m ρ c) (Proc.devRef .tc main_v31) = _
  simp only [hostOps1]
  after_results
  simp only [ofBuf_toBuf, ofBuf_v5, ofBuf_v30, toBuf_v31]
theorem v6_W5 (c : Dev nD) : W5 (F := F) m ρ c (Proc.devRef .tc main_v6) = W3 (F := F) m ρ c (Proc.devRef .tc main_v6) := by
  have h5 : W5 (F := F) m ρ c (Proc.devRef .tc main_v6) = W4 (F := F) m ρ c (Proc.devRef .tc main_v6) := by
    show StableHlo.after hostOps1 (W4 m ρ c) (Proc.devRef .tc main_v6) = _
    simp only [hostOps1]
    after_results
  have h4 : W4 (F := F) m ρ c (Proc.devRef .tc main_v6) = W3 (F := F) m ρ c (Proc.devRef .tc main_v6) := W4_of_ne m ρ c main_v6 (by decide)
  exact (h5.trans h4)
theorem v29_W5 (c : Dev nD) : W5 (F := F) m ρ c (Proc.devRef .tc main_v29) = W3 (F := F) m ρ c (Proc.devRef .tc main_v29) := by
  have h5 : W5 (F := F) m ρ c (Proc.devRef .tc main_v29) = W4 (F := F) m ρ c (Proc.devRef .tc main_v29) := by
    show StableHlo.after hostOps1 (W4 m ρ c) (Proc.devRef .tc main_v29) = _
    simp only [hostOps1]
    after_results
  have h4 : W4 (F := F) m ρ c (Proc.devRef .tc main_v29) = W3 (F := F) m ρ c (Proc.devRef .tc main_v29) := W4_of_ne m ρ c main_v29 (by decide)
  exact (h5.trans h4)
theorem arg3_W5 (c : Dev nD) : W5 (F := F) m ρ c (Proc.devRef .tc main_arg3) = W0 (F := F) m ρ c (Proc.devRef .tc main_arg3) := by
  have h5 : W5 (F := F) m ρ c (Proc.devRef .tc main_arg3) = W4 (F := F) m ρ c (Proc.devRef .tc main_arg3) := by
    show StableHlo.after hostOps1 (W4 m ρ c) (Proc.devRef .tc main_arg3) = _
    simp only [hostOps1]
    after_results
  have h4 : W4 (F := F) m ρ c (Proc.devRef .tc main_arg3) = W3 (F := F) m ρ c (Proc.devRef .tc main_arg3) := W4_of_ne m ρ c main_arg3 (by decide)
  have h3 : W3 (F := F) m ρ c (Proc.devRef .tc main_arg3) = W2 (F := F) m ρ c (Proc.devRef .tc main_arg3) := by
    show StableHlo.after hostOps0_2 (W2 m ρ c) (Proc.devRef .tc main_arg3) = _
    simp only [hostOps0_2]
    after_results
  have h2 : W2 (F := F) m ρ c (Proc.devRef .tc main_arg3) = W1 (F := F) m ρ c (Proc.devRef .tc main_arg3) := by
    show StableHlo.after hostOps0_1 (W1 m ρ c) (Proc.devRef .tc main_arg3) = _
    simp only [hostOps0_1]
    after_results
  have h1 : W1 (F := F) m ρ c (Proc.devRef .tc main_arg3) = W0 (F := F) m ρ c (Proc.devRef .tc main_arg3) := by
    show StableHlo.after hostOps0 (W0 m ρ c) (Proc.devRef .tc main_arg3) = _
    simp only [hostOps0]
    after_results
  exact (h5.trans (h4.trans (h3.trans (h2.trans h1))))
/-- The weighted rows summed into their target nodes. -/
theorem agg1_read (c : Dev nD) : W6 (F := F) m ρ c (Proc.devRef .tc main_v37) = Host.scatterAdd scatter_S200000x32_S6600000x1_S6600000x32_1_0_0_1
      (broadcastInDim S200000x32 ![] bcast_S_S200000x32 (constant (F := F) S_ .f32 0x00000000#32))
      (broadcastInDim S6600000x1 ![0] bcast_S6600000_S6600000x1_0 (W5 (F := F) m ρ c (Proc.devRef .tc main_v6)))
      (mulf (W5 (F := F) m ρ c (Proc.devRef .tc main_v31))
        (broadcastInDim S6600000x32 ![0, 1] bcast_S6600000x1_S6600000x32_0_1
          (broadcastInDim S6600000x1 ![0] bcast_S6600000_S6600000x1_0 (W5 (F := F) m ρ c (Proc.devRef .tc main_v29))))) := by
  show StableHlo.after hostOps1_1 (W5 m ρ c) (Proc.devRef .tc main_v37) = _
  simp only [hostOps1_1]
  after_results
  all_goals rfl
/-- The first bias as a row. -/
theorem b1_read (c : Dev nD) : W6 (F := F) m ρ c (Proc.devRef .tc main_v38) = shapeCast S1x32 (W5 (F := F) m ρ c (Proc.devRef .tc main_arg3)) shapeCasts_S32_S1x32 := by
  show StableHlo.after hostOps1_1 (W5 m ρ c) (Proc.devRef .tc main_v38) = _
  simp only [hostOps1_1]
  after_results
  all_goals rfl
theorem arg4_W7 (c : Dev nD) : W7 (F := F) m ρ c (Proc.devRef .tc main_arg4) = W0 (F := F) m ρ c (Proc.devRef .tc main_arg4) := by
  have h7 : W7 (F := F) m ρ c (Proc.devRef .tc main_arg4) = W6 (F := F) m ρ c (Proc.devRef .tc main_arg4) := W7_of_ne m ρ c main_arg4 (by decide)
  have h6 : W6 (F := F) m ρ c (Proc.devRef .tc main_arg4) = W5 (F := F) m ρ c (Proc.devRef .tc main_arg4) := by
    show StableHlo.after hostOps1_1 (W5 m ρ c) (Proc.devRef .tc main_arg4) = _
    simp only [hostOps1_1]
    after_results
  have h5 : W5 (F := F) m ρ c (Proc.devRef .tc main_arg4) = W4 (F := F) m ρ c (Proc.devRef .tc main_arg4) := by
    show StableHlo.after hostOps1 (W4 m ρ c) (Proc.devRef .tc main_arg4) = _
    simp only [hostOps1]
    after_results
  have h4 : W4 (F := F) m ρ c (Proc.devRef .tc main_arg4) = W3 (F := F) m ρ c (Proc.devRef .tc main_arg4) := W4_of_ne m ρ c main_arg4 (by decide)
  have h3 : W3 (F := F) m ρ c (Proc.devRef .tc main_arg4) = W2 (F := F) m ρ c (Proc.devRef .tc main_arg4) := by
    show StableHlo.after hostOps0_2 (W2 m ρ c) (Proc.devRef .tc main_arg4) = _
    simp only [hostOps0_2]
    after_results
  have h2 : W2 (F := F) m ρ c (Proc.devRef .tc main_arg4) = W1 (F := F) m ρ c (Proc.devRef .tc main_arg4) := by
    show StableHlo.after hostOps0_1 (W1 m ρ c) (Proc.devRef .tc main_arg4) = _
    simp only [hostOps0_1]
    after_results
  have h1 : W1 (F := F) m ρ c (Proc.devRef .tc main_arg4) = W0 (F := F) m ρ c (Proc.devRef .tc main_arg4) := by
    show StableHlo.after hostOps0 (W0 m ρ c) (Proc.devRef .tc main_arg4) = _
    simp only [hostOps0]
    after_results
  exact (h7.trans (h6.trans (h5.trans (h4.trans (h3.trans (h2.trans h1))))))

end Cert.Bridge
end
-- ==== Proof.ReadLayer2.lean ====
import proofs.«423043_j71803263254611_2_alg».proof.Proof.Gen.KernelIdeal.Frame
import proofs.«423043_j71803263254611_2_alg».proof.Proof.TakeInRange
import Idealize.ShloMosaic.Lib.StableHlo.Run
import proofs.«423043_j71803263254611_2_alg».proof.Proof.Casts

set_option maxRecDepth 16384
set_option maxHeartbeats 4000000

noncomputable section
namespace Cert.Bridge
open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ) (ρ : Dev nD → PrngReg)

/-! ## Layer 2 and the output stage: the host operations read back

At any float family: the second gather under its in-bounds mask, the second scatter-add, the biases as rows; and the
index vectors and edge weights, which no later operation or region writes, carried from region 0's entry. -/

theorem v5_W8 (c : Dev nD) : W8 (F := F) m ρ c (Proc.devRef .tc main_v5) = W3 (F := F) m ρ c (Proc.devRef .tc main_v5) := by
  have h8 : W8 (F := F) m ρ c (Proc.devRef .tc main_v5) = W7 (F := F) m ρ c (Proc.devRef .tc main_v5) := W8_of_ne m ρ c main_v5 (by decide)
  have h7 : W7 (F := F) m ρ c (Proc.devRef .tc main_v5) = W6 (F := F) m ρ c (Proc.devRef .tc main_v5) := W7_of_ne m ρ c main_v5 (by decide)
  have h6 : W6 (F := F) m ρ c (Proc.devRef .tc main_v5) = W5 (F := F) m ρ c (Proc.devRef .tc main_v5) := by
    show StableHlo.after hostOps1_1 (W5 m ρ c) (Proc.devRef .tc main_v5) = _
    simp only [hostOps1_1]
    after_results
  have h5 : W5 (F := F) m ρ c (Proc.devRef .tc main_v5) = W4 (F := F) m ρ c (Proc.devRef .tc main_v5) := by
    show StableHlo.after hostOps1 (W4 m ρ c) (Proc.devRef .tc main_v5) = _
    simp only [hostOps1]
    after_results
  have h4 : W4 (F := F) m ρ c (Proc.devRef .tc main_v5) = W3 (F := F) m ρ c (Proc.devRef .tc main_v5) := W4_of_ne m ρ c main_v5 (by decide)
  exact (h8.trans (h7.trans (h6.trans (h5.trans h4))))
theorem v6_W9 (c : Dev nD) : W9 (F := F) m ρ c (Proc.devRef .tc main_v6) = W3 (F := F) m ρ c (Proc.devRef .tc main_v6) := by
  have h9 : W9 (F := F) m ρ c (Proc.devRef .tc main_v6) = W8 (F := F) m ρ c (Proc.devRef .tc main_v6) := by
    show StableHlo.after hostOps3 (W8 m ρ c) (Proc.devRef .tc main_v6) = _
    simp only [hostOps3]
    after_results
  have h8 : W8 (F := F) m ρ c (Proc.devRef .tc main_v6) = W7 (F := F) m ρ c (Proc.devRef .tc main_v6) := W8_of_ne m ρ c main_v6 (by decide)
  have h7 : W7 (F := F) m ρ c (Proc.devRef .tc main_v6) = W6 (F := F) m ρ c (Proc.devRef .tc main_v6) := W7_of_ne m ρ c main_v6 (by decide)
  have h6 : W6 (F := F) m ρ c (Proc.devRef .tc main_v6) = W5 (F := F) m ρ c (Proc.devRef .tc main_v6) := by
    show StableHlo.after hostOps1_1 (W5 m ρ c) (Proc.devRef .tc main_v6) = _
    simp only [hostOps1_1]
    after_results
  have h5 : W5 (F := F) m ρ c (Proc.devRef .tc main_v6) = W4 (F := F) m ρ c (Proc.devRef .tc main_v6) := by
    show StableHlo.after hostOps1 (W4 m ρ c) (Proc.devRef .tc main_v6) = _
    simp only [hostOps1]
    after_results
  have h4 : W4 (F := F) m ρ c (Proc.devRef .tc main_v6) = W3 (F := F) m ρ c (Proc.devRef .tc main_v6) := W4_of_ne m ρ c main_v6 (by decide)
  exact (h9.trans (h8.trans (h7.trans (h6.trans (h5.trans h4)))))
theorem v29_W9 (c : Dev nD) : W9 (F := F) m ρ c (Proc.devRef .tc main_v29) = W3 (F := F) m ρ c (Proc.devRef .tc main_v29) := by
  have h9 : W9 (F := F) m ρ c (Proc.devRef .tc main_v29) = W8 (F := F) m ρ c (Proc.devRef .tc main_v29) := by
    show StableHlo.after hostOps3 (W8 m ρ c) (Proc.devRef .tc main_v29) = _
    simp only [hostOps3]
    after_results
  have h8 : W8 (F := F) m ρ c (Proc.devRef .tc main_v29) = W7 (F := F) m ρ c (Proc.devRef .tc main_v29) := W8_of_ne m ρ c main_v29 (by decide)
  have h7 : W7 (F := F) m ρ c (Proc.devRef .tc main_v29) = W6 (F := F) m ρ c (Proc.devRef .tc main_v29) := W7_of_ne m ρ c main_v29 (by decide)
  have h6 : W6 (F := F) m ρ c (Proc.devRef .tc main_v29) = W5 (F := F) m ρ c (Proc.devRef .tc main_v29) := by
    show StableHlo.after hostOps1_1 (W5 m ρ c) (Proc.devRef .tc main_v29) = _
    simp only [hostOps1_1]
    after_results
  have h5 : W5 (F := F) m ρ c (Proc.devRef .tc main_v29) = W4 (F := F) m ρ c (Proc.devRef .tc main_v29) := by
    show StableHlo.after hostOps1 (W4 m ρ c) (Proc.devRef .tc main_v29) = _
    simp only [hostOps1]
    after_results
  have h4 : W4 (F := F) m ρ c (Proc.devRef .tc main_v29) = W3 (F := F) m ρ c (Proc.devRef .tc main_v29) := W4_of_ne m ρ c main_v29 (by decide)
  exact (h9.trans (h8.trans (h7.trans (h6.trans (h5.trans h4)))))
theorem arg5_W9 (c : Dev nD) : W9 (F := F) m ρ c (Proc.devRef .tc main_arg5) = W0 (F := F) m ρ c (Proc.devRef .tc main_arg5) := by
  have h9 : W9 (F := F) m ρ c (Proc.devRef .tc main_arg5) = W8 (F := F) m ρ c (Proc.devRef .tc main_arg5) := by
    show StableHlo.after hostOps3 (W8 m ρ c) (Proc.devRef .tc main_arg5) = _
    simp only [hostOps3]
    after_results
  have h8 : W8 (F := F) m ρ c (Proc.devRef .tc main_arg5) = W7 (F := F) m ρ c (Proc.devRef .tc main_arg5) := W8_of_ne m ρ c main_arg5 (by decide)
  have h7 : W7 (F := F) m ρ c (Proc.devRef .tc main_arg5) = W6 (F := F) m ρ c (Proc.devRef .tc main_arg5) := W7_of_ne m ρ c main_arg5 (by decide)
  have h6 : W6 (F := F) m ρ c (Proc.devRef .tc main_arg5) = W5 (F := F) m ρ c (Proc.devRef .tc main_arg5) := by
    show StableHlo.after hostOps1_1 (W5 m ρ c) (Proc.devRef .tc main_arg5) = _
    simp only [hostOps1_1]
    after_results
  have h5 : W5 (F := F) m ρ c (Proc.devRef .tc main_arg5) = W4 (F := F) m ρ c (Proc.devRef .tc main_arg5) := by
    show StableHlo.after hostOps1 (W4 m ρ c) (Proc.devRef .tc main_arg5) = _
    simp only [hostOps1]
    after_results
  have h4 : W4 (F := F) m ρ c (Proc.devRef .tc main_arg5) = W3 (F := F) m ρ c (Proc.devRef .tc main_arg5) := W4_of_ne m ρ c main_arg5 (by decide)
  have h3 : W3 (F := F) m ρ c (Proc.devRef .tc main_arg5) = W2 (F := F) m ρ c (Proc.devRef .tc main_arg5) := by
    show StableHlo.after hostOps0_2 (W2 m ρ c) (Proc.devRef .tc main_arg5) = _
    simp only [hostOps0_2]
    after_results
  have h2 : W2 (F := F) m ρ c (Proc.devRef .tc main_arg5) = W1 (F := F) m ρ c (Proc.devRef .tc main_arg5) := by
    show StableHlo.after hostOps0_1 (W1 m ρ c) (Proc.devRef .tc main_arg5) = _
    simp only [hostOps0_1]
    after_results
  have h1 : W1 (F := F) m ρ c (Proc.devRef .tc main_arg5) = W0 (F := F) m ρ c (Proc.devRef .tc main_arg5) := by
    show StableHlo.after hostOps0 (W0 m ρ c) (Proc.devRef .tc main_arg5) = _
    simp only [hostOps0]
    after_results
  exact (h9.trans (h8.trans (h7.trans (h6.trans (h5.trans (h4.trans (h3.trans (h2.trans h1))))))))
/-- The rows of `h1 · W2` gathered at the source indices, under the in-bounds mask. -/
theorem take2_read (c : Dev nD) : W9 (F := F) m ρ c (Proc.devRef .tc main_v41) = select (broadcastInDim S6600000x16 ![0] bcast_S6600000_S6600000x16_0 (inBounds (W8 (F := F) m ρ c (Proc.devRef .tc main_v5))))
      (Host.gather gather_S200000x16_S6600000x1_S6600000x16_1_0_n_n_0_1_116 (W8 (F := F) m ρ c (Proc.devRef .tc main_v40)) (idxCol (W8 (F := F) m ρ c (Proc.devRef .tc main_v5))))
      (broadcastInDim S6600000x16 ![] bcast_S_S6600000x16 (constant (F := F) S_ .f32 0x7FC00000#32)) := by
  show StableHlo.after hostOps3 (W8 m ρ c) (Proc.devRef .tc main_v41) = _
  simp only [hostOps3]
  after_results
  simp only [ofBuf_toBuf, ofBuf_v5, ofBuf_v40, toBuf_v41]
/-- The weighted rows summed into their target nodes. -/
theorem agg2_read (c : Dev nD) : W10 (F := F) m ρ c (Proc.devRef .tc main_v47) = Host.scatterAdd scatter_S200000x16_S6600000x1_S6600000x16_1_0_0_1
      (broadcastInDim S200000x16 ![] bcast_S_S200000x16 (constant (F := F) S_ .f32 0x00000000#32))
      (broadcastInDim S6600000x1 ![0] bcast_S6600000_S6600000x1_0 (W9 (F := F) m ρ c (Proc.devRef .tc main_v6)))
      (mulf (W9 (F := F) m ρ c (Proc.devRef .tc main_v41))
        (broadcastInDim S6600000x16 ![0, 1] bcast_S6600000x1_S6600000x16_0_1
          (broadcastInDim S6600000x1 ![0] bcast_S6600000_S6600000x1_0 (W9 (F := F) m ρ c (Proc.devRef .tc main_v29))))) := by
  show StableHlo.after hostOps3_1 (W9 m ρ c) (Proc.devRef .tc main_v47) = _
  simp only [hostOps3_1]
  after_results
  all_goals rfl
/-- The second bias as a row. -/
theorem b2_read (c : Dev nD) : W10 (F := F) m ρ c (Proc.devRef .tc main_v48) = shapeCast S1x16 (W9 (F := F) m ρ c (Proc.devRef .tc main_arg5)) shapeCasts_S16_S1x16 := by
  show StableHlo.after hostOps3_1 (W9 m ρ c) (Proc.devRef .tc main_v48) = _
  simp only [hostOps3_1]
  after_results
  all_goals rfl
theorem arg6_W11 (c : Dev nD) : W11 (F := F) m ρ c (Proc.devRef .tc main_arg6) = W0 (F := F) m ρ c (Proc.devRef .tc main_arg6) := by
  have h11 : W11 (F := F) m ρ c (Proc.devRef .tc main_arg6) = W10 (F := F) m ρ c (Proc.devRef .tc main_arg6) := W11_of_ne m ρ c main_arg6 (by decide)
  have h10 : W10 (F := F) m ρ c (Proc.devRef .tc main_arg6) = W9 (F := F) m ρ c (Proc.devRef .tc main_arg6) := by
    show StableHlo.after hostOps3_1 (W9 m ρ c) (Proc.devRef .tc main_arg6) = _
    simp only [hostOps3_1]
    after_results
  have h9 : W9 (F := F) m ρ c (Proc.devRef .tc main_arg6) = W8 (F := F) m ρ c (Proc.devRef .tc main_arg6) := by
    show StableHlo.after hostOps3 (W8 m ρ c) (Proc.devRef .tc main_arg6) = _
    simp only [hostOps3]
    after_results
  have h8 : W8 (F := F) m ρ c (Proc.devRef .tc main_arg6) = W7 (F := F) m ρ c (Proc.devRef .tc main_arg6) := W8_of_ne m ρ c main_arg6 (by decide)
  have h7 : W7 (F := F) m ρ c (Proc.devRef .tc main_arg6) = W6 (F := F) m ρ c (Proc.devRef .tc main_arg6) := W7_of_ne m ρ c main_arg6 (by decide)
  have h6 : W6 (F := F) m ρ c (Proc.devRef .tc main_arg6) = W5 (F := F) m ρ c (Proc.devRef .tc main_arg6) := by
    show StableHlo.after hostOps1_1 (W5 m ρ c) (Proc.devRef .tc main_arg6) = _
    simp only [hostOps1_1]
    after_results
  have h5 : W5 (F := F) m ρ c (Proc.devRef .tc main_arg6) = W4 (F := F) m ρ c (Proc.devRef .tc main_arg6) := by
    show StableHlo.after hostOps1 (W4 m ρ c) (Proc.devRef .tc main_arg6) = _
    simp only [hostOps1]
    after_results
  have h4 : W4 (F := F) m ρ c (Proc.devRef .tc main_arg6) = W3 (F := F) m ρ c (Proc.devRef .tc main_arg6) := W4_of_ne m ρ c main_arg6 (by decide)
  have h3 : W3 (F := F) m ρ c (Proc.devRef .tc main_arg6) = W2 (F := F) m ρ c (Proc.devRef .tc main_arg6) := by
    show StableHlo.after hostOps0_2 (W2 m ρ c) (Proc.devRef .tc main_arg6) = _
    simp only [hostOps0_2]
    after_results
  have h2 : W2 (F := F) m ρ c (Proc.devRef .tc main_arg6) = W1 (F := F) m ρ c (Proc.devRef .tc main_arg6) := by
    show StableHlo.after hostOps0_1 (W1 m ρ c) (Proc.devRef .tc main_arg6) = _
    simp only [hostOps0_1]
    after_results
  have h1 : W1 (F := F) m ρ c (Proc.devRef .tc main_arg6) = W0 (F := F) m ρ c (Proc.devRef .tc main_arg6) := by
    show StableHlo.after hostOps0 (W0 m ρ c) (Proc.devRef .tc main_arg6) = _
    simp only [hostOps0]
    after_results
  exact (h11.trans (h10.trans (h9.trans (h8.trans (h7.trans (h6.trans (h5.trans (h4.trans (h3.trans (h2.trans h1))))))))))
theorem arg7_W12 (c : Dev nD) : W12 (F := F) m ρ c (Proc.devRef .tc main_arg7) = W0 (F := F) m ρ c (Proc.devRef .tc main_arg7) := by
  have h12 : W12 (F := F) m ρ c (Proc.devRef .tc main_arg7) = W11 (F := F) m ρ c (Proc.devRef .tc main_arg7) := W12_of_ne m ρ c main_arg7 (by decide)
  have h11 : W11 (F := F) m ρ c (Proc.devRef .tc main_arg7) = W10 (F := F) m ρ c (Proc.devRef .tc main_arg7) := W11_of_ne m ρ c main_arg7 (by decide)
  have h10 : W10 (F := F) m ρ c (Proc.devRef .tc main_arg7) = W9 (F := F) m ρ c (Proc.devRef .tc main_arg7) := by
    show StableHlo.after hostOps3_1 (W9 m ρ c) (Proc.devRef .tc main_arg7) = _
    simp only [hostOps3_1]
    after_results
  have h9 : W9 (F := F) m ρ c (Proc.devRef .tc main_arg7) = W8 (F := F) m ρ c (Proc.devRef .tc main_arg7) := by
    show StableHlo.after hostOps3 (W8 m ρ c) (Proc.devRef .tc main_arg7) = _
    simp only [hostOps3]
    after_results
  have h8 : W8 (F := F) m ρ c (Proc.devRef .tc main_arg7) = W7 (F := F) m ρ c (Proc.devRef .tc main_arg7) := W8_of_ne m ρ c main_arg7 (by decide)
  have h7 : W7 (F := F) m ρ c (Proc.devRef .tc main_arg7) = W6 (F := F) m ρ c (Proc.devRef .tc main_arg7) := W7_of_ne m ρ c main_arg7 (by decide)
  have h6 : W6 (F := F) m ρ c (Proc.devRef .tc main_arg7) = W5 (F := F) m ρ c (Proc.devRef .tc main_arg7) := by
    show StableHlo.after hostOps1_1 (W5 m ρ c) (Proc.devRef .tc main_arg7) = _
    simp only [hostOps1_1]
    after_results
  have h5 : W5 (F := F) m ρ c (Proc.devRef .tc main_arg7) = W4 (F := F) m ρ c (Proc.devRef .tc main_arg7) := by
    show StableHlo.after hostOps1 (W4 m ρ c) (Proc.devRef .tc main_arg7) = _
    simp only [hostOps1]
    after_results
  have h4 : W4 (F := F) m ρ c (Proc.devRef .tc main_arg7) = W3 (F := F) m ρ c (Proc.devRef .tc main_arg7) := W4_of_ne m ρ c main_arg7 (by decide)
  have h3 : W3 (F := F) m ρ c (Proc.devRef .tc main_arg7) = W2 (F := F) m ρ c (Proc.devRef .tc main_arg7) := by
    show StableHlo.after hostOps0_2 (W2 m ρ c) (Proc.devRef .tc main_arg7) = _
    simp only [hostOps0_2]
    after_results
  have h2 : W2 (F := F) m ρ c (Proc.devRef .tc main_arg7) = W1 (F := F) m ρ c (Proc.devRef .tc main_arg7) := by
    show StableHlo.after hostOps0_1 (W1 m ρ c) (Proc.devRef .tc main_arg7) = _
    simp only [hostOps0_1]
    after_results
  have h1 : W1 (F := F) m ρ c (Proc.devRef .tc main_arg7) = W0 (F := F) m ρ c (Proc.devRef .tc main_arg7) := by
    show StableHlo.after hostOps0 (W0 m ρ c) (Proc.devRef .tc main_arg7) = _
    simp only [hostOps0]
    after_results
  exact (h12.trans (h11.trans (h10.trans (h9.trans (h8.trans (h7.trans (h6.trans (h5.trans (h4.trans (h3.trans (h2.trans h1)))))))))))
theorem v50_W13 (c : Dev nD) : W13 (F := F) m ρ c (Proc.devRef .tc main_v50) = W12 (F := F) m ρ c (Proc.devRef .tc main_v50) := by
  have h13 : W13 (F := F) m ρ c (Proc.devRef .tc main_v50) = W12 (F := F) m ρ c (Proc.devRef .tc main_v50) := by
    show StableHlo.after hostOps5 (W12 m ρ c) (Proc.devRef .tc main_v50) = _
    simp only [hostOps5]
    after_results
  exact h13
/-- The output bias as a row. -/
theorem bf_read (c : Dev nD) : W13 (F := F) m ρ c (Proc.devRef .tc main_v51) = shapeCast S1x2 (W12 (F := F) m ρ c (Proc.devRef .tc main_arg7)) shapeCasts_S2_S1x2 := by
  show StableHlo.after hostOps5 (W12 m ρ c) (Proc.devRef .tc main_v51) = _
  simp only [hostOps5]
  after_results
  all_goals rfl

end Cert.Bridge
end
-- ==== Proof.Stages.lean ====
import proofs.«423043_j71803263254611_2_alg».proof.Proof.Gen.KernelIdeal
import proofs.«423043_j71803263254611_2_alg».proof.Proof.TakeInRange
import proofs.«423043_j71803263254611_2_alg».proof.Proof.RefRead

set_option maxRecDepth 16384
set_option maxHeartbeats 4000000

noncomputable section
namespace Cert.Bridge
open Idealize.ShloMosaic Idealize.ShloMosaic.TcCoe Idealize.SL.Sem Idealize.ShloMosaic.StableHlo
open Cert.KernelIdeal Cert.KernelIdeal.Gen

variable {F : FTy → Type} [FloatOps F]
variable (x : (⟨Cert.ReferenceIdeal.S200000x7, .f32⟩ : BufTy).Contents (Elt F)) (e : (⟨Cert.ReferenceIdeal.S2x6400000, .i32⟩ : BufTy).Contents (Elt F)) (w1 : (⟨Cert.ReferenceIdeal.S7x32, .f32⟩ : BufTy).Contents (Elt F)) (b1 : (⟨Cert.ReferenceIdeal.S32, .f32⟩ : BufTy).Contents (Elt F))
  (w2 : (⟨Cert.ReferenceIdeal.S32x16, .f32⟩ : BufTy).Contents (Elt F)) (b2 : (⟨Cert.ReferenceIdeal.S16, .f32⟩ : BufTy).Contents (Elt F)) (wf : (⟨Cert.ReferenceIdeal.S16x2, .f32⟩ : BufTy).Contents (Elt F)) (bf : (⟨Cert.ReferenceIdeal.S2, .f32⟩ : BufTy).Contents (Elt F))

/-! ## The kernel program's host operations over the reference's stages are the reference's next stages

Each line: an operation of the kernel program, applied to values already identified with stages of the reference
(its `val_<buffer>` functions of the arguments), is the reference's own next stage: the two programs spell the gather
index, the scatter-add, the bias broadcast and the clamp at zero by the same operations, and the reference's second
layer recomputes index vectors and edge weights that are, term for term, those of its first. Stated at any float
family, where the comparison is between the terms as written. -/

theorem st_take1 : Host.gather gather_S200000x32_S6600000x1_S6600000x32_1_0_n_n_0_1_132 (Cert.ReferenceIdeal.ReadP.val_main_v15 (F := F) x w1) (idxCol (Cert.ReferenceIdeal.ReadP.val_main_v5 (F := F) e)) = Cert.ReferenceIdeal.ReadP.val_main_v37 (F := F) x e w1 := rfl
theorem st_agg1 : Host.scatterAdd scatter_S200000x32_S6600000x1_S6600000x32_1_0_0_1 (broadcastInDim S200000x32 ![] bcast_S_S200000x32 (constant (F := F) S_ .f32 0x00000000#32))
      (broadcastInDim S6600000x1 ![0] bcast_S6600000_S6600000x1_0 (Cert.ReferenceIdeal.ReadP.val_main_v6 (F := F) e))
      (mulf (Cert.ReferenceIdeal.ReadP.val_main_v37 (F := F) x e w1)
        (broadcastInDim S6600000x32 ![0, 1] bcast_S6600000x1_S6600000x32_0_1
          (broadcastInDim S6600000x1 ![0] bcast_S6600000_S6600000x1_0 (Cert.ReferenceIdeal.ReadP.val_main_v30 (F := F) e)))) = Cert.ReferenceIdeal.ReadP.val_main_v43 (F := F) x e w1 := rfl
theorem st_b1 : broadcastInDim Cert.ReferenceIdeal.S1x32 ![1] Cert.ReferenceIdeal.Facts₀.bcast_S32_S1x32_1 b1 = Cert.ReferenceIdeal.ReadP.val_main_v44 (F := F) b1 := rfl
theorem st_r1 : maximumf (addf (Cert.ReferenceIdeal.ReadP.val_main_v43 (F := F) x e w1) (broadcastInDim Cert.ReferenceIdeal.S200000x32 ![0, 1] Cert.ReferenceIdeal.Facts₀.bcast_S1x32_S200000x32_0_1 (Cert.ReferenceIdeal.ReadP.val_main_v44 (F := F) b1)))
      (broadcastInDim Cert.ReferenceIdeal.S200000x32 ![] Cert.ReferenceIdeal.Facts₀.bcast_S_S200000x32 (constant (F := F) Cert.ReferenceIdeal.S_ .f32 0x00000000#32)) = Cert.ReferenceIdeal.ReadP.val_main_v47 (F := F) x e w1 b1 := rfl
theorem st_r2 : Host.dotGeneral (F := F) (φ₁ := .f32) (φ₂ := .f32) Cert.ReferenceIdeal.dot_S200000x32_S32x16_S200000x16_1_0_0_1_n_n none (Cert.ReferenceIdeal.ReadP.val_main_v47 (F := F) x e w1 b1) w2 = Cert.ReferenceIdeal.ReadP.val_main_v59 (F := F) x e w1 b1 w2 := rfl
theorem st_take2 : Host.gather gather_S200000x16_S6600000x1_S6600000x16_1_0_n_n_0_1_116 (Cert.ReferenceIdeal.ReadP.val_main_v59 (F := F) x e w1 b1 w2) (idxCol (Cert.ReferenceIdeal.ReadP.val_main_v5 (F := F) e)) = Cert.ReferenceIdeal.ReadP.val_main_v81 (F := F) x e w1 b1 w2 := rfl
theorem st_agg2 : Host.scatterAdd scatter_S200000x16_S6600000x1_S6600000x16_1_0_0_1 (broadcastInDim S200000x16 ![] bcast_S_S200000x16 (constant (F := F) S_ .f32 0x00000000#32))
      (broadcastInDim S6600000x1 ![0] bcast_S6600000_S6600000x1_0 (Cert.ReferenceIdeal.ReadP.val_main_v6 (F := F) e))
      (mulf (Cert.ReferenceIdeal.ReadP.val_main_v81 (F := F) x e w1 b1 w2)
        (broadcastInDim S6600000x16 ![0, 1] bcast_S6600000x1_S6600000x16_0_1
          (broadcastInDim S6600000x1 ![0] bcast_S6600000_S6600000x1_0 (Cert.ReferenceIdeal.ReadP.val_main_v30 (F := F) e)))) = Cert.ReferenceIdeal.ReadP.val_main_v87 (F := F) x e w1 b1 w2 := rfl
theorem st_b2 : broadcastInDim Cert.ReferenceIdeal.S1x16 ![1] Cert.ReferenceIdeal.Facts₀.bcast_S16_S1x16_1 b2 = Cert.ReferenceIdeal.ReadP.val_main_v88 (F := F) b2 := rfl
theorem st_r3 : maximumf (addf (Cert.ReferenceIdeal.ReadP.val_main_v87 (F := F) x e w1 b1 w2) (broadcastInDim Cert.ReferenceIdeal.S200000x16 ![0, 1] Cert.ReferenceIdeal.Facts₀.bcast_S1x16_S200000x16_0_1 (Cert.ReferenceIdeal.ReadP.val_main_v88 (F := F) b2)))
      (broadcastInDim Cert.ReferenceIdeal.S200000x16 ![] Cert.ReferenceIdeal.Facts₀.bcast_S_S200000x16 (constant (F := F) Cert.ReferenceIdeal.S_ .f32 0x00000000#32)) = Cert.ReferenceIdeal.ReadP.val_main_v91 (F := F) x e w1 b1 w2 b2 := rfl
theorem st_r4 : Host.dotGeneral (F := F) (φ₁ := .f32) (φ₂ := .f32) Cert.ReferenceIdeal.dot_S200000x16_S16x2_S200000x2_1_0_0_1_n_n none (Cert.ReferenceIdeal.ReadP.val_main_v91 (F := F) x e w1 b1 w2 b2) wf = Cert.ReferenceIdeal.ReadP.val_main_v92 (F := F) x e w1 b1 w2 b2 wf := rfl
theorem st_bf : broadcastInDim Cert.ReferenceIdeal.S1x2 ![1] Cert.ReferenceIdeal.Facts₀.bcast_S2_S1x2_1 bf = Cert.ReferenceIdeal.ReadP.val_main_v93 (F := F) bf := rfl
theorem st_r5 : addf (Cert.ReferenceIdeal.ReadP.val_main_v92 (F := F) x e w1 b1 w2 b2 wf) (broadcastInDim Cert.ReferenceIdeal.S200000x2 ![0, 1] Cert.ReferenceIdeal.Facts₀.bcast_S1x2_S200000x2_0_1 (Cert.ReferenceIdeal.ReadP.val_main_v93 (F := F) bf)) = Cert.ReferenceIdeal.ReadP.val_main_v95 (F := F) x e w1 b1 w2 b2 wf bf := rfl

end Cert.Bridge
end
-- ==== Proof.MatmulRegions.lean ====
import proofs.«423043_j71803263254611_2_alg».proof.Proof.Gen.KernelIdeal.Frame
import proofs.«423043_j71803263254611_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen

/-- The zero offsets of a whole-buffer access, as the constant function. -/
theorem zero_off : (![0, 0] : Fin 2 → Nat) = fun _ => 0 :=
  funext fun a => match a with
    | ⟨0, _⟩ => rfl
    | ⟨1, _⟩ => rfl

variable (V : (c : Dev nD) → (b : Ref sig .tc) → Buf (Elt Ideal) ((c : Thread nD τ).loc b))

/-! ## Region 0: a 20000-row block of the left array times the whole 7 x 32 weight, ten blocks -/

/-- The block product's left operand index at output index `j` and contraction coordinate `k`: (row of `j`, `k`). -/
abbrev bl0 (j : S20000x32.Idx) (k : Fin 7) : S20000x7.Idx := fun a => match a with
  | ⟨0, _⟩ => ⟨(j 0).val, (j 0).isLt⟩
  | ⟨1, _⟩ => ⟨k.val, k.isLt⟩
/-- Its right operand index: (`k`, column of `j`). -/
abbrev br0 (j : S20000x32.Idx) (k : Fin 7) : S7x32.Idx := fun a => match a with
  | ⟨0, _⟩ => ⟨k.val, k.isLt⟩
  | ⟨1, _⟩ => ⟨(j 1).val, (j 1).isLt⟩

/-- The block product's left operand index keeps the output's row. -/
theorem blhs0_0 (i : S20000x32.Idx) (q : dot_S20000x7_S7x32_S20000x32_1_0_0_1_n_n.contr.Idx) :
    (dot_S20000x7_S7x32_S20000x32_1_0_0_1_n_n.lhsIdx i q 0).val = (i 0).val := by
  unfold DotDims.lhsIdx
  rw [dif_neg (show ¬(0 : Fin S20000x7.rank) ∈ dot_S20000x7_S7x32_S20000x32_1_0_0_1_n_n.lhsBatch by decide), dif_pos (show (0 : Fin S20000x7.rank) ∈ dot_S20000x7_S7x32_S20000x32_1_0_0_1_n_n.lhsNonContracting by decide)]
  rfl
/-- Its column is the contraction coordinate. -/
theorem blhs0_1 (i : S20000x32.Idx) (q : dot_S20000x7_S7x32_S20000x32_1_0_0_1_n_n.contr.Idx) :
    (dot_S20000x7_S7x32_S20000x32_1_0_0_1_n_n.lhsIdx i q 1).val = (q ⟨0, by decide⟩).val :=
  dot_S20000x7_S7x32_S20000x32_1_0_0_1_n_n.lhsIdx_val_of_single rfl i q
/-- The block product's right operand index has the contraction coordinate as its row, -/
theorem brhs0_0 (i : S20000x32.Idx) (q : dot_S20000x7_S7x32_S20000x32_1_0_0_1_n_n.contr.Idx) :
    (dot_S20000x7_S7x32_S20000x32_1_0_0_1_n_n.rhsIdx i q 0).val = (q ⟨0, by decide⟩).val :=
  dot_S20000x7_S7x32_S20000x32_1_0_0_1_n_n.rhsIdx_val_of_single rfl i q
/-- and keeps the output's column. -/
theorem brhs0_1 (i : S20000x32.Idx) (q : dot_S20000x7_S7x32_S20000x32_1_0_0_1_n_n.contr.Idx) :
    (dot_S20000x7_S7x32_S20000x32_1_0_0_1_n_n.rhsIdx i q 1).val = (i 1).val := by
  unfold DotDims.rhsIdx
  rw [dif_neg (show ¬(1 : Fin S7x32.rank) ∈ dot_S20000x7_S7x32_S20000x32_1_0_0_1_n_n.rhsBatch by decide), dif_pos (show (1 : Fin S7x32.rank) ∈ dot_S20000x7_S7x32_S20000x32_1_0_0_1_n_n.rhsNonContracting by decide)]
  rfl

/-- The body's payload at an index: the two loaded blocks pass the bf16 cast unchanged at the ideal values, and the
    product into the zero accumulator is the plain sum over the contraction coordinate. -/
theorem pay0_apply (x0 : Vec Ideal S20000x7 .f32) (x1 : Vec Ideal S7x32 .f32) (j : S20000x32.Idx) :
    k0_pay1 (F := Ideal) x0 x1 j = ∑ k : Fin 7, x0 (bl0 j k) * x1 (br0 j k) := by
  unfold k0_pay1
  simp only [matmul]
  rw [Ideal.matmul_constant_zero_apply, ← Equiv.sum_comp (ValueIdx.contrEquiv1 dot_S20000x7_S7x32_S20000x32_1_0_0_1_n_n 7 rfl rfl).symm]
  refine Finset.sum_congr rfl fun k _ => ?_
  have hk := ValueIdx.contrEquiv1_symm_val dot_S20000x7_S7x32_S20000x32_1_0_0_1_n_n 7 rfl rfl k
  have el : dot_S20000x7_S7x32_S20000x32_1_0_0_1_n_n.lhsIdx j ((ValueIdx.contrEquiv1 dot_S20000x7_S7x32_S20000x32_1_0_0_1_n_n 7 rfl rfl).symm k) = bl0 j k := funext fun a => Fin.ext (by
    match a with
    | ⟨0, _⟩ => exact blhs0_0 _ _
    | ⟨1, _⟩ => exact (blhs0_1 _ _).trans hk)
  have er : dot_S20000x7_S7x32_S20000x32_1_0_0_1_n_n.rhsIdx j ((ValueIdx.contrEquiv1 dot_S20000x7_S7x32_S20000x32_1_0_0_1_n_n 7 rfl rfl).symm k) = br0 j k := funext fun a => Fin.ext (by
    match a with
    | ⟨0, _⟩ => exact (brhs0_0 _ _).trans hk
    | ⟨1, _⟩ => exact brhs0_1 _ _)
  rw [el, er]
  rfl

/-- The whole product's left operand index at output index `i` and contraction coordinate `k`. -/
abbrev al0 (i : S200000x32.Idx) (k : Fin 7) : S200000x7.Idx := fun a => match a with
  | ⟨0, _⟩ => ⟨(i 0).val, (i 0).isLt⟩
  | ⟨1, _⟩ => ⟨k.val, k.isLt⟩
/-- Its right operand index. -/
abbrev ar0 (i : S200000x32.Idx) (k : Fin 7) : S7x32.Idx := fun a => match a with
  | ⟨0, _⟩ => ⟨k.val, k.isLt⟩
  | ⟨1, _⟩ => ⟨(i 1).val, (i 1).isLt⟩

/-- The whole product's left operand index keeps the output's row. -/
theorem alhs0_0 (i : S200000x32.Idx) (q : Cert.ReferenceIdeal.dot_S200000x7_S7x32_S200000x32_1_0_0_1_n_n.contr.Idx) :
    (Cert.ReferenceIdeal.dot_S200000x7_S7x32_S200000x32_1_0_0_1_n_n.lhsIdx i q 0).val = (i 0).val := by
  unfold DotDims.lhsIdx
  rw [dif_neg (show ¬(0 : Fin S200000x7.rank) ∈ Cert.ReferenceIdeal.dot_S200000x7_S7x32_S200000x32_1_0_0_1_n_n.lhsBatch by decide), dif_pos (show (0 : Fin S200000x7.rank) ∈ Cert.ReferenceIdeal.dot_S200000x7_S7x32_S200000x32_1_0_0_1_n_n.lhsNonContracting by decide)]
  rfl
/-- Its column is the contraction coordinate. -/
theorem alhs0_1 (i : S200000x32.Idx) (q : Cert.ReferenceIdeal.dot_S200000x7_S7x32_S200000x32_1_0_0_1_n_n.contr.Idx) :
    (Cert.ReferenceIdeal.dot_S200000x7_S7x32_S200000x32_1_0_0_1_n_n.lhsIdx i q 1).val = (q ⟨0, by decide⟩).val :=
  Cert.ReferenceIdeal.dot_S200000x7_S7x32_S200000x32_1_0_0_1_n_n.lhsIdx_val_of_single rfl i q
/-- The whole product's right operand index has the contraction coordinate as its row, -/
theorem arhs0_0 (i : S200000x32.Idx) (q : Cert.ReferenceIdeal.dot_S200000x7_S7x32_S200000x32_1_0_0_1_n_n.contr.Idx) :
    (Cert.ReferenceIdeal.dot_S200000x7_S7x32_S200000x32_1_0_0_1_n_n.rhsIdx i q 0).val = (q ⟨0, by decide⟩).val :=
  Cert.ReferenceIdeal.dot_S200000x7_S7x32_S200000x32_1_0_0_1_n_n.rhsIdx_val_of_single rfl i q
/-- and keeps the output's column. -/
theorem arhs0_1 (i : S200000x32.Idx) (q : Cert.ReferenceIdeal.dot_S200000x7_S7x32_S200000x32_1_0_0_1_n_n.contr.Idx) :
    (Cert.ReferenceIdeal.dot_S200000x7_S7x32_S200000x32_1_0_0_1_n_n.rhsIdx i q 1).val = (i 1).val := by
  unfold DotDims.rhsIdx
  rw [dif_neg (show ¬(1 : Fin S7x32.rank) ∈ Cert.ReferenceIdeal.dot_S200000x7_S7x32_S200000x32_1_0_0_1_n_n.rhsBatch by decide), dif_pos (show (1 : Fin S7x32.rank) ∈ Cert.ReferenceIdeal.dot_S200000x7_S7x32_S200000x32_1_0_0_1_n_n.rhsNonContracting by decide)]
  rfl

/-- The reference's whole product at an index, at the ideal values: the same sum over the contraction coordinate. -/
theorem ref0_apply (a0 : (⟨S200000x7, .f32⟩ : BufTy).Contents (Elt Ideal)) (a1 : (⟨S7x32, .f32⟩ : BufTy).Contents (Elt Ideal)) (i : S200000x32.Idx) :
    Host.dotGeneral (F := Ideal) (φ₁ := .f32) (φ₂ := .f32) Cert.ReferenceIdeal.dot_S200000x7_S7x32_S200000x32_1_0_0_1_n_n none a0 a1 i = ∑ k : Fin 7, a0 (al0 i k) * a1 (ar0 i k) := by
  simp only [Host.dotGeneral]
  rw [Ideal.dotGeneral_apply, ← Equiv.sum_comp (ValueIdx.contrEquiv1 Cert.ReferenceIdeal.dot_S200000x7_S7x32_S200000x32_1_0_0_1_n_n 7 rfl rfl).symm]
  refine Finset.sum_congr rfl fun k _ => ?_
  have hk := ValueIdx.contrEquiv1_symm_val Cert.ReferenceIdeal.dot_S200000x7_S7x32_S200000x32_1_0_0_1_n_n 7 rfl rfl k
  have el : Cert.ReferenceIdeal.dot_S200000x7_S7x32_S200000x32_1_0_0_1_n_n.lhsIdx i ((ValueIdx.contrEquiv1 Cert.ReferenceIdeal.dot_S200000x7_S7x32_S200000x32_1_0_0_1_n_n 7 rfl rfl).symm k) = al0 i k := funext fun a => Fin.ext (by
    match a with
    | ⟨0, _⟩ => exact alhs0_0 _ _
    | ⟨1, _⟩ => exact (alhs0_1 _ _).trans hk)
  have er : Cert.ReferenceIdeal.dot_S200000x7_S7x32_S200000x32_1_0_0_1_n_n.rhsIdx i ((ValueIdx.contrEquiv1 Cert.ReferenceIdeal.dot_S200000x7_S7x32_S200000x32_1_0_0_1_n_n 7 rfl rfl).symm k) = ar0 i k := funext fun a => Fin.ext (by
    match a with
    | ⟨0, _⟩ => exact (arhs0_0 _ _).trans hk
    | ⟨1, _⟩ => exact arhs0_1 _ _)
  rw [el, er]

/-- One element of one block. If the loaded blocks are the arrays read through placements `e0`, `e1`, and the
    placements carry the block product's operand indices at `j` to the whole product's at `e2 j`, then the payload at
    `j` is the whole product at `e2 j`. -/
theorem point0 (a0 : (⟨S200000x7, .f32⟩ : BufTy).Contents (Elt Ideal)) (a1 : (⟨S7x32, .f32⟩ : BufTy).Contents (Elt Ideal))
    (x0 : Vec Ideal S20000x7 .f32) (x1 : Vec Ideal S7x32 .f32)
    (e0 : S20000x7.Idx → S200000x7.Idx) (e1 : S7x32.Idx → S7x32.Idx) (e2 : S20000x32.Idx → S200000x32.Idx)
    (h0 : ∀ y, x0 y = a0 (e0 y)) (h1 : ∀ y, x1 y = a1 (e1 y))
    (he0 : ∀ j k, e0 (bl0 j k) = al0 (e2 j) k) (he1 : ∀ j k, e1 (br0 j k) = ar0 (e2 j) k)
    (j : S20000x32.Idx) :
    k0_pay1 (F := Ideal) x0 x1 j = Host.dotGeneral (F := Ideal) (φ₁ := .f32) (φ₂ := .f32) Cert.ReferenceIdeal.dot_S200000x7_S7x32_S200000x32_1_0_0_1_n_n none a0 a1 (e2 j) := by
  rw [pay0_apply, ref0_apply]
  exact Finset.sum_congr rfl fun k _ => by rw [h0, h1, he0, he1]

/-- The printed index maps, decided over the grid: point `t` takes row block `t` of the left array and of the result,
    and the one block of the weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto0 : ∀ q : Fin 10, ∃ t : Fin cfg0.N, t.val = q.val :=
  (by decide +kernel : ∀ q : Fin 10, ∃ t : Fin grid0.N, t.val = q.val)

/-- What point `t` writes back is block `t` of the whole product of the two arrays as the region finds them. -/
theorem flushed0_eq (c : Dev nD) (t : Fin cfg0.N) :
    (dat0 (F := Ideal) V c).flushed 2 t
      = ((cfg0.win 2).blk t).view.read (Elt Ideal) (Host.dotGeneral (F := Ideal) (φ₁ := .f32) (φ₂ := .f32) Cert.ReferenceIdeal.dot_S200000x7_S7x32_S200000x32_1_0_0_1_n_n none (V c main_arg0) (V c main_arg2)) := by
  show (cfg0.win 2).cut (grid0.coords t) ((dat0 V c).after 2 t) = _
  rw [after0_2]
  unfold out0_2
  rw [View.canon_unit_zero zero_off]
  simp only [View.ld_unit_zero (S := S20000x7) zero_off, View.ld_unit_zero (S := S7x32) zero_off]
  obtain ⟨e0, e1, e2, e3, e4, e5⟩ := idx_facts0 t
  funext j
  refine point0 (V c main_arg0) (V c main_arg2) (iblk0 V c 0 t) (iblk0 V c 1 t)
    (fun y => ((cfg0.win 0).blk t).view.emb y) (fun y => ((cfg0.win 1).blk t).view.emb y)
    (fun y => ((cfg0.win 2).blk t).view.emb y) (fun y => rfl) (fun y => rfl) ?_ ?_ j
  · intro j k
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 7 + 1 * k.val = k.val; omega
  · intro j k
    funext a; apply Fin.ext
    match a with
    | ⟨0, _⟩ => show win0_1.index t (0 : Fin 2) * 7 + 1 * k.val = k.val; omega
    | ⟨1, _⟩ => show win0_1.index t (1 : Fin 2) * 32 + 1 * (j 1).val = win0_2.index t (1 : Fin 2) * 32 + 1 * (j 1).val; omega

/-- An index of the result is in point `t`'s block iff each coordinate is in the block's range on its axis. -/
theorem mem_blk0 (t : Fin cfg0.N) (i : S200000x32.Idx) :
    i ∈ ((cfg0.win 2).blk t).view.set ↔ ∀ a : Fin 2, win0_2.index t a * S20000x32.size a ≤ (i a).val ∧ (i a).val < win0_2.index t a * S20000x32.size a + S20000x32.size a := by
  show i ∈ ((View.whole main_v30).slice (win0_2.rect t)).set ↔ _
  rw [View.set_slice_whole, Rect.mem_set_unit]
  exact Iff.rfl

/-- The ten row blocks tile the result: row `r` is in block `r / 20000`. -/
theorem cover0 (i : S200000x32.Idx) :
    ∃ t : Fin cfg0.N, (cfg0.win 2).flush t = true ∧ i ∈ ((cfg0.win 2).blk t).view.set := by
  have hi0 : (i 0).val < 200000 := (i 0).isLt
  have hi1 : (i 1).val < 32 := (i 1).isLt
  obtain ⟨t, ht⟩ := idx_onto0 ⟨(i 0).val / 20000, by omega⟩
  have ht' : t.val = (i 0).val / 20000 := ht
  obtain ⟨e0, e1, e2, e3, e4, e5⟩ := idx_facts0 t
  refine ⟨t, flush0_2 t, ?_⟩
  rw [mem_blk0]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 32 ≤ (i 1).val ∧ (i 1).val < win0_2.index t (1 : Fin 2) * 32 + 32; omega

/-- The result array after region 0's run is the reference's whole product of the region's two input arrays. -/
theorem region0_array (c : Dev nD) :
    (dat0 (F := Ideal) V c).arrAt 2 cfg0.N
      = Host.dotGeneral (F := Ideal) (φ₁ := .f32) (φ₂ := .f32) Cert.ReferenceIdeal.dot_S200000x7_S7x32_S200000x32_1_0_0_1_n_n none (V c main_arg0) (V c main_arg2) :=
  (dat0 (F := Ideal) V c).arrAt_eq_of_cover 2 _ (fun t _ => flushed0_eq V c t) (cover0)

/-! ## Region 2: a 20000-row block of the left array times the whole 32 x 16 weight, ten blocks -/

/-- The block product's left operand index at output index `j` and contraction coordinate `k`: (row of `j`, `k`). -/
abbrev bl2 (j : S20000x16.Idx) (k : Fin 32) : S20000x32.Idx := fun a => match a with
  | ⟨0, _⟩ => ⟨(j 0).val, (j 0).isLt⟩
  | ⟨1, _⟩ => ⟨k.val, k.isLt⟩
/-- Its right operand index: (`k`, column of `j`). -/
abbrev br2 (j : S20000x16.Idx) (k : Fin 32) : S32x16.Idx := fun a => match a with
  | ⟨0, _⟩ => ⟨k.val, k.isLt⟩
  | ⟨1, _⟩ => ⟨(j 1).val, (j 1).isLt⟩

/-- The block product's left operand index keeps the output's row. -/
theorem blhs2_0 (i : S20000x16.Idx) (q : dot_S20000x32_S32x16_S20000x16_1_0_0_1_n_n.contr.Idx) :
    (dot_S20000x32_S32x16_S20000x16_1_0_0_1_n_n.lhsIdx i q 0).val = (i 0).val := by
  unfold DotDims.lhsIdx
  rw [dif_neg (show ¬(0 : Fin S20000x32.rank) ∈ dot_S20000x32_S32x16_S20000x16_1_0_0_1_n_n.lhsBatch by decide), dif_pos (show (0 : Fin S20000x32.rank) ∈ dot_S20000x32_S32x16_S20000x16_1_0_0_1_n_n.lhsNonContracting by decide)]
  rfl
/-- Its column is the contraction coordinate. -/
theorem blhs2_1 (i : S20000x16.Idx) (q : dot_S20000x32_S32x16_S20000x16_1_0_0_1_n_n.contr.Idx) :
    (dot_S20000x32_S32x16_S20000x16_1_0_0_1_n_n.lhsIdx i q 1).val = (q ⟨0, by decide⟩).val :=
  dot_S20000x32_S32x16_S20000x16_1_0_0_1_n_n.lhsIdx_val_of_single rfl i q
/-- The block product's right operand index has the contraction coordinate as its row, -/
theorem brhs2_0 (i : S20000x16.Idx) (q : dot_S20000x32_S32x16_S20000x16_1_0_0_1_n_n.contr.Idx) :
    (dot_S20000x32_S32x16_S20000x16_1_0_0_1_n_n.rhsIdx i q 0).val = (q ⟨0, by decide⟩).val :=
  dot_S20000x32_S32x16_S20000x16_1_0_0_1_n_n.rhsIdx_val_of_single rfl i q
/-- and keeps the output's column. -/
theorem brhs2_1 (i : S20000x16.Idx) (q : dot_S20000x32_S32x16_S20000x16_1_0_0_1_n_n.contr.Idx) :
    (dot_S20000x32_S32x16_S20000x16_1_0_0_1_n_n.rhsIdx i q 1).val = (i 1).val := by
  unfold DotDims.rhsIdx
  rw [dif_neg (show ¬(1 : Fin S32x16.rank) ∈ dot_S20000x32_S32x16_S20000x16_1_0_0_1_n_n.rhsBatch by decide), dif_pos (show (1 : Fin S32x16.rank) ∈ dot_S20000x32_S32x16_S20000x16_1_0_0_1_n_n.rhsNonContracting by decide)]
  rfl

/-- The body's payload at an index: the left block's cast to its own shape is the identity, the two blocks pass the bf16 cast unchanged at the ideal values, and the
    product into the zero accumulator is the plain sum over the contraction coordinate. -/
theorem pay2_apply (x0 : Vec Ideal S20000x32 .f32) (x1 : Vec Ideal S32x16 .f32) (j : S20000x16.Idx) :
    k2_pay1 (F := Ideal) x0 x1 j = ∑ k : Fin 32, x0 (bl2 j k) * x1 (br2 j k) := by
  unfold k2_pay1
  simp only [matmul]
  rw [shapeCast_self, Ideal.matmul_constant_zero_apply, ← Equiv.sum_comp (ValueIdx.contrEquiv1 dot_S20000x32_S32x16_S20000x16_1_0_0_1_n_n 32 rfl rfl).symm]
  refine Finset.sum_congr rfl fun k _ => ?_
  have hk := ValueIdx.contrEquiv1_symm_val dot_S20000x32_S32x16_S20000x16_1_0_0_1_n_n 32 rfl rfl k
  have el : dot_S20000x32_S32x16_S20000x16_1_0_0_1_n_n.lhsIdx j ((ValueIdx.contrEquiv1 dot_S20000x32_S32x16_S20000x16_1_0_0_1_n_n 32 rfl rfl).symm k) = bl2 j k := funext fun a => Fin.ext (by
    match a with
    | ⟨0, _⟩ => exact blhs2_0 _ _
    | ⟨1, _⟩ => exact (blhs2_1 _ _).trans hk)
  have er : dot_S20000x32_S32x16_S20000x16_1_0_0_1_n_n.rhsIdx j ((ValueIdx.contrEquiv1 dot_S20000x32_S32x16_S20000x16_1_0_0_1_n_n 32 rfl rfl).symm k) = br2 j k := funext fun a => Fin.ext (by
    match a with
    | ⟨0, _⟩ => exact (brhs2_0 _ _).trans hk
    | ⟨1, _⟩ => exact brhs2_1 _ _)
  rw [el, er]
  rfl

/-- The whole product's left operand index at output index `i` and contraction coordinate `k`. -/
abbrev al2 (i : S200000x16.Idx) (k : Fin 32) : S200000x32.Idx := fun a => match a with
  | ⟨0, _⟩ => ⟨(i 0).val, (i 0).isLt⟩
  | ⟨1, _⟩ => ⟨k.val, k.isLt⟩
/-- Its right operand index. -/
abbrev ar2 (i : S200000x16.Idx) (k : Fin 32) : S32x16.Idx := fun a => match a with
  | ⟨0, _⟩ => ⟨k.val, k.isLt⟩
  | ⟨1, _⟩ => ⟨(i 1).val, (i 1).isLt⟩

/-- The whole product's left operand index keeps the output's row. -/
theorem alhs2_0 (i : S200000x16.Idx) (q : Cert.ReferenceIdeal.dot_S200000x32_S32x16_S200000x16_1_0_0_1_n_n.contr.Idx) :
    (Cert.ReferenceIdeal.dot_S200000x32_S32x16_S200000x16_1_0_0_1_n_n.lhsIdx i q 0).val = (i 0).val := by
  unfold DotDims.lhsIdx
  rw [dif_neg (show ¬(0 : Fin S200000x32.rank) ∈ Cert.ReferenceIdeal.dot_S200000x32_S32x16_S200000x16_1_0_0_1_n_n.lhsBatch by decide), dif_pos (show (0 : Fin S200000x32.rank) ∈ Cert.ReferenceIdeal.dot_S200000x32_S32x16_S200000x16_1_0_0_1_n_n.lhsNonContracting by decide)]
  rfl
/-- Its column is the contraction coordinate. -/
theorem alhs2_1 (i : S200000x16.Idx) (q : Cert.ReferenceIdeal.dot_S200000x32_S32x16_S200000x16_1_0_0_1_n_n.contr.Idx) :
    (Cert.ReferenceIdeal.dot_S200000x32_S32x16_S200000x16_1_0_0_1_n_n.lhsIdx i q 1).val = (q ⟨0, by decide⟩).val :=
  Cert.ReferenceIdeal.dot_S200000x32_S32x16_S200000x16_1_0_0_1_n_n.lhsIdx_val_of_single rfl i q
/-- The whole product's right operand index has the contraction coordinate as its row, -/
theorem arhs2_0 (i : S200000x16.Idx) (q : Cert.ReferenceIdeal.dot_S200000x32_S32x16_S200000x16_1_0_0_1_n_n.contr.Idx) :
    (Cert.ReferenceIdeal.dot_S200000x32_S32x16_S200000x16_1_0_0_1_n_n.rhsIdx i q 0).val = (q ⟨0, by decide⟩).val :=
  Cert.ReferenceIdeal.dot_S200000x32_S32x16_S200000x16_1_0_0_1_n_n.rhsIdx_val_of_single rfl i q
/-- and keeps the output's column. -/
theorem arhs2_1 (i : S200000x16.Idx) (q : Cert.ReferenceIdeal.dot_S200000x32_S32x16_S200000x16_1_0_0_1_n_n.contr.Idx) :
    (Cert.ReferenceIdeal.dot_S200000x32_S32x16_S200000x16_1_0_0_1_n_n.rhsIdx i q 1).val = (i 1).val := by
  unfold DotDims.rhsIdx
  rw [dif_neg (show ¬(1 : Fin S32x16.rank) ∈ Cert.ReferenceIdeal.dot_S200000x32_S32x16_S200000x16_1_0_0_1_n_n.rhsBatch by decide), dif_pos (show (1 : Fin S32x16.rank) ∈ Cert.ReferenceIdeal.dot_S200000x32_S32x16_S200000x16_1_0_0_1_n_n.rhsNonContracting by decide)]
  rfl

/-- The reference's whole product at an index, at the ideal values: the same sum over the contraction coordinate. -/
theorem ref2_apply (a0 : (⟨S200000x32, .f32⟩ : BufTy).Contents (Elt Ideal)) (a1 : (⟨S32x16, .f32⟩ : BufTy).Contents (Elt Ideal)) (i : S200000x16.Idx) :
    Host.dotGeneral (F := Ideal) (φ₁ := .f32) (φ₂ := .f32) Cert.ReferenceIdeal.dot_S200000x32_S32x16_S200000x16_1_0_0_1_n_n none a0 a1 i = ∑ k : Fin 32, a0 (al2 i k) * a1 (ar2 i k) := by
  simp only [Host.dotGeneral]
  rw [Ideal.dotGeneral_apply, ← Equiv.sum_comp (ValueIdx.contrEquiv1 Cert.ReferenceIdeal.dot_S200000x32_S32x16_S200000x16_1_0_0_1_n_n 32 rfl rfl).symm]
  refine Finset.sum_congr rfl fun k _ => ?_
  have hk := ValueIdx.contrEquiv1_symm_val Cert.ReferenceIdeal.dot_S200000x32_S32x16_S200000x16_1_0_0_1_n_n 32 rfl rfl k
  have el : Cert.ReferenceIdeal.dot_S200000x32_S32x16_S200000x16_1_0_0_1_n_n.lhsIdx i ((ValueIdx.contrEquiv1 Cert.ReferenceIdeal.dot_S200000x32_S32x16_S200000x16_1_0_0_1_n_n 32 rfl rfl).symm k) = al2 i k := funext fun a => Fin.ext (by
    match a with
    | ⟨0, _⟩ => exact alhs2_0 _ _
    | ⟨1, _⟩ => exact (alhs2_1 _ _).trans hk)
  have er : Cert.ReferenceIdeal.dot_S200000x32_S32x16_S200000x16_1_0_0_1_n_n.rhsIdx i ((ValueIdx.contrEquiv1 Cert.ReferenceIdeal.dot_S200000x32_S32x16_S200000x16_1_0_0_1_n_n 32 rfl rfl).symm k) = ar2 i k := funext fun a => Fin.ext (by
    match a with
    | ⟨0, _⟩ => exact (arhs2_0 _ _).trans hk
    | ⟨1, _⟩ => exact arhs2_1 _ _)
  rw [el, er]

/-- One element of one block. If the loaded blocks are the arrays read through placements `e0`, `e1`, and the
    placements carry the block product's operand indices at `j` to the whole product's at `e2 j`, then the payload at
    `j` is the whole product at `e2 j`. -/
theorem point2 (a0 : (⟨S200000x32, .f32⟩ : BufTy).Contents (Elt Ideal)) (a1 : (⟨S32x16, .f32⟩ : BufTy).Contents (Elt Ideal))
    (x0 : Vec Ideal S20000x32 .f32) (x1 : Vec Ideal S32x16 .f32)
    (e0 : S20000x32.Idx → S200000x32.Idx) (e1 : S32x16.Idx → S32x16.Idx) (e2 : S20000x16.Idx → S200000x16.Idx)
    (h0 : ∀ y, x0 y = a0 (e0 y)) (h1 : ∀ y, x1 y = a1 (e1 y))
    (he0 : ∀ j k, e0 (bl2 j k) = al2 (e2 j) k) (he1 : ∀ j k, e1 (br2 j k) = ar2 (e2 j) k)
    (j : S20000x16.Idx) :
    k2_pay1 (F := Ideal) x0 x1 j = Host.dotGeneral (F := Ideal) (φ₁ := .f32) (φ₂ := .f32) Cert.ReferenceIdeal.dot_S200000x32_S32x16_S200000x16_1_0_0_1_n_n none a0 a1 (e2 j) := by
  rw [pay2_apply, ref2_apply]
  exact Finset.sum_congr rfl fun k _ => by rw [h0, h1, he0, he1]

/-- The printed index maps, decided over the grid: point `t` takes row block `t` of the left array and of the result,
    and the one block of the weight. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto2 : ∀ q : Fin 10, ∃ t : Fin cfg2.N, t.val = q.val :=
  (by decide +kernel : ∀ q : Fin 10, ∃ t : Fin grid2.N, t.val = q.val)

/-- What point `t` writes back is block `t` of the whole product of the two arrays as the region finds them. -/
theorem flushed2_eq (c : Dev nD) (t : Fin cfg2.N) :
    (dat2 (F := Ideal) V c).flushed 2 t
      = ((cfg2.win 2).blk t).view.read (Elt Ideal) (Host.dotGeneral (F := Ideal) (φ₁ := .f32) (φ₂ := .f32) Cert.ReferenceIdeal.dot_S200000x32_S32x16_S200000x16_1_0_0_1_n_n none (V c main_v39) (V c main_arg4)) := by
  show (cfg2.win 2).cut (grid2.coords t) ((dat2 V c).after 2 t) = _
  rw [after2_2]
  unfold out2_2
  rw [View.canon_unit_zero zero_off]
  simp only [View.ld_unit_zero (S := S20000x32) zero_off, View.ld_unit_zero (S := S32x16) zero_off]
  obtain ⟨e0, e1, e2, e3, e4, e5⟩ := idx_facts2 t
  funext j
  refine point2 (V c main_v39) (V c main_arg4) (iblk2 V c 0 t) (iblk2 V c 1 t)
    (fun y => ((cfg2.win 0).blk t).view.emb y) (fun y => ((cfg2.win 1).blk t).view.emb y)
    (fun y => ((cfg2.win 2).blk t).view.emb y) (fun y => rfl) (fun y => rfl) ?_ ?_ j
  · intro j k
    funext a; apply Fin.ext
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 32 + 1 * k.val = k.val; omega
  · intro j k
    funext a; apply Fin.ext
    match a with
    | ⟨0, _⟩ => show win2_1.index t (0 : Fin 2) * 32 + 1 * k.val = k.val; omega
    | ⟨1, _⟩ => show win2_1.index t (1 : Fin 2) * 16 + 1 * (j 1).val = win2_2.index t (1 : Fin 2) * 16 + 1 * (j 1).val; omega

/-- An index of the result is in point `t`'s block iff each coordinate is in the block's range on its axis. -/
theorem mem_blk2 (t : Fin cfg2.N) (i : S200000x16.Idx) :
    i ∈ ((cfg2.win 2).blk t).view.set ↔ ∀ a : Fin 2, win2_2.index t a * S20000x16.size a ≤ (i a).val ∧ (i a).val < win2_2.index t a * S20000x16.size a + S20000x16.size a := by
  show i ∈ ((View.whole main_v40).slice (win2_2.rect t)).set ↔ _
  rw [View.set_slice_whole, Rect.mem_set_unit]
  exact Iff.rfl

/-- The ten row blocks tile the result: row `r` is in block `r / 20000`. -/
theorem cover2 (i : S200000x16.Idx) :
    ∃ t : Fin cfg2.N, (cfg2.win 2).flush t = true ∧ i ∈ ((cfg2.win 2).blk t).view.set := by
  have hi0 : (i 0).val < 200000 := (i 0).isLt
  have hi1 : (i 1).val < 16 := (i 1).isLt
  obtain ⟨t, ht⟩ := idx_onto2 ⟨(i 0).val / 20000, by omega⟩
  have ht' : t.val = (i 0).val / 20000 := ht
  obtain ⟨e0, e1, e2, e3, e4, e5⟩ := idx_facts2 t
  refine ⟨t, flush2_2 t, ?_⟩
  rw [mem_blk2]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 16 ≤ (i 1).val ∧ (i 1).val < win2_2.index t (1 : Fin 2) * 16 + 16; omega

/-- The result array after region 2's run is the reference's whole product of the region's two input arrays. -/
theorem region2_array (c : Dev nD) :
    (dat2 (F := Ideal) V c).arrAt 2 cfg2.N
      = Host.dotGeneral (F := Ideal) (φ₁ := .f32) (φ₂ := .f32) Cert.ReferenceIdeal.dot_S200000x32_S32x16_S200000x16_1_0_0_1_n_n none (V c main_v39) (V c main_arg4) :=
  (dat2 (F := Ideal) V c).arrAt_eq_of_cover 2 _ (fun t _ => flushed2_eq V c t) (cover2)

/-! ## Region 4: a 20000-row block of the left array times the whole 16 x 2 weight, ten blocks -/

/-- The block product's left operand index at output index `j` and contraction coordinate `k`: (row of `j`, `k`). -/
abbrev bl4 (j : S20000x2.Idx) (k : Fin 16) : S20000x16.Idx := fun a => match a with
  | ⟨0, _⟩ => ⟨(j 0).val, (j 0).isLt⟩
  | ⟨1, _⟩ => ⟨k.val, k.isLt⟩
/-- Its right operand index: (`k`, column of `j`). -/
abbrev br4 (j : S20000x2.Idx) (k : Fin 16) : S16x2.Idx := fun a => match a with
  | ⟨0, _⟩ => ⟨k.val, k.isLt⟩
  | ⟨1, _⟩ => ⟨(j 1).val, (j 1).isLt⟩

/-- The block product's left operand index keeps the output's row. -/
theorem blhs4_0 (i : S20000x2.Idx) (q : dot_S20000x16_S16x2_S20000x2_1_0_0_1_n_n.contr.Idx) :
    (dot_S20000x16_S16x2_S20000x2_1_0_0_1_n_n.lhsIdx i q 0).val = (i 0).val := by
  unfold DotDims.lhsIdx
  rw [dif_neg (show ¬(0 : Fin S20000x16.rank) ∈ dot_S20000x16_S16x2_S20000x2_1_0_0_1_n_n.lhsBatch by decide), dif_pos (show (0 : Fin S20000x16.rank) ∈ dot_S20000x16_S16x2_S20000x2_1_0_0_1_n_n.lhsNonContracting by decide)]
  rfl
/-- Its column is the contraction coordinate. -/
theorem blhs4_1 (i : S20000x2.Idx) (q : dot_S20000x16_S16x2_S20000x2_1_0_0_1_n_n.contr.Idx) :
    (dot_S20000x16_S16x2_S20000x2_1_0_0_1_n_n.lhsIdx i q 1).val = (q ⟨0, by decide⟩).val :=
  dot_S20000x16_S16x2_S20000x2_1_0_0_1_n_n.lhsIdx_val_of_single rfl i q
/-- The block product's right operand index has the contraction coordinate as its row, -/
theorem brhs4_0 (i : S20000x2.Idx) (q : dot_S20000x16_S16x2_S20000x2_1_0_0_1_n_n.contr.Idx) :
    (dot_S20000x16_S16x2_S20000x2_1_0_0_1_n_n.rhsIdx i q 0).val = (q ⟨0, by decide⟩).val :=
  dot_S20000x16_S16x2_S20000x2_1_0_0_1_n_n.rhsIdx_val_of_single rfl i q
/-- and keeps the output's column. -/
theorem brhs4_1 (i : S20000x2.Idx) (q : dot_S20000x16_S16x2_S20000x2_1_0_0_1_n_n.contr.Idx) :
    (dot_S20000x16_S16x2_S20000x2_1_0_0_1_n_n.rhsIdx i q 1).val = (i 1).val := by
  unfold DotDims.rhsIdx
  rw [dif_neg (show ¬(1 : Fin S16x2.rank) ∈ dot_S20000x16_S16x2_S20000x2_1_0_0_1_n_n.rhsBatch by decide), dif_pos (show (1 : Fin S16x2.rank) ∈ dot_S20000x16_S16x2_S20000x2_1_0_0_1_n_n.rhsNonContracting by decide)]
  rfl

/-- The body's payload at an index: the left block's cast to its own shape is the identity, the two blocks pass the bf16 cast unchanged at the ideal values, and the
    product into the zero accumulator is the plain sum over the contraction coordinate. -/
theorem pay4_apply (x0 : Vec Ideal S20000x16 .f32) (x1 : Vec Ideal S16x2 .f32) (j : S20000x2.Idx) :
    k4_pay1 (F := Ideal) x0 x1 j = ∑ k : Fin 16, x0 (bl4 j k) * x1 (br4 j k) := by
  unfold k4_pay1
  simp only [matmul]
  rw [shapeCast_self, Ideal.matmul_constant_zero_apply, ← Equiv.sum_comp (ValueIdx.contrEquiv1 dot_S20000x16_S16x2_S20000x2_1_0_0_1_n_n 16 rfl rfl).symm]
  refine Finset.sum_congr rfl fun k _ => ?_
  have hk := ValueIdx.contrEquiv1_symm_val dot_S20000x16_S16x2_S20000x2_1_0_0_1_n_n 16 rfl rfl k
  have el : dot_S20000x16_S16x2_S20000x2_1_0_0_1_n_n.lhsIdx j ((ValueIdx.contrEquiv1 dot_S20000x16_S16x2_S20000x2_1_0_0_1_n_n 16 rfl rfl).symm k) = bl4 j k := funext fun a => Fin.ext (by
    match a with
    | ⟨0, _⟩ => exact blhs4_0 _ _
    | ⟨1, _⟩ => exact (blhs4_1 _ _).trans hk)
  have er : dot_S20000x16_S16x2_S20000x2_1_0_0_1_n_n.rhsIdx j ((ValueIdx.contrEquiv1 dot_S20000x16_S16x2_S20000x2_1_0_0_1_n_n 16 rfl rfl).symm k) = br4 j k := funext fun a => Fin.ext (by
    match a with
    | ⟨0, _⟩ => exact (brhs4_0 _ _).trans hk
    | ⟨1, _⟩ => exact brhs4_1 _ _)
  rw [el, er]
  rfl

/-- The whole product's left operand index at output index `i` and contraction coordinate `k`. -/
abbrev al4 (i : S200000x2.Idx) (k : Fin 16) : S200000x16.Idx := fun a => match a with
  | ⟨0, _⟩ => ⟨(i 0).val, (i 0).isLt⟩
  | ⟨1, _⟩ => ⟨k.val, k.isLt⟩
/-- Its right operand index. -/
abbrev ar4 (i : S200000x2.Idx) (k : Fin 16) : S16x2.Idx := fun a => match a with
  | ⟨0, _⟩ => ⟨k.val, k.isLt⟩
  | ⟨1, _⟩ => ⟨(i 1).val, (i 1).isLt⟩

/-- The whole product's left operand index keeps the output's row. -/
theorem alhs4_0 (i : S200000x2.Idx) (q : Cert.ReferenceIdeal.dot_S200000x16_S16x2_S200000x2_1_0_0_1_n_n.contr.Idx) :
    (Cert.ReferenceIdeal.dot_S200000x16_S16x2_S200000x2_1_0_0_1_n_n.lhsIdx i q 0).val = (i 0).val := by
  unfold DotDims.lhsIdx
  rw [dif_neg (show ¬(0 : Fin S200000x16.rank) ∈ Cert.ReferenceIdeal.dot_S200000x16_S16x2_S200000x2_1_0_0_1_n_n.lhsBatch by decide), dif_pos (show (0 : Fin S200000x16.rank) ∈ Cert.ReferenceIdeal.dot_S200000x16_S16x2_S200000x2_1_0_0_1_n_n.lhsNonContracting by decide)]
  rfl
/-- Its column is the contraction coordinate. -/
theorem alhs4_1 (i : S200000x2.Idx) (q : Cert.ReferenceIdeal.dot_S200000x16_S16x2_S200000x2_1_0_0_1_n_n.contr.Idx) :
    (Cert.ReferenceIdeal.dot_S200000x16_S16x2_S200000x2_1_0_0_1_n_n.lhsIdx i q 1).val = (q ⟨0, by decide⟩).val :=
  Cert.ReferenceIdeal.dot_S200000x16_S16x2_S200000x2_1_0_0_1_n_n.lhsIdx_val_of_single rfl i q
/-- The whole product's right operand index has the contraction coordinate as its row, -/
theorem arhs4_0 (i : S200000x2.Idx) (q : Cert.ReferenceIdeal.dot_S200000x16_S16x2_S200000x2_1_0_0_1_n_n.contr.Idx) :
    (Cert.ReferenceIdeal.dot_S200000x16_S16x2_S200000x2_1_0_0_1_n_n.rhsIdx i q 0).val = (q ⟨0, by decide⟩).val :=
  Cert.ReferenceIdeal.dot_S200000x16_S16x2_S200000x2_1_0_0_1_n_n.rhsIdx_val_of_single rfl i q
/-- and keeps the output's column. -/
theorem arhs4_1 (i : S200000x2.Idx) (q : Cert.ReferenceIdeal.dot_S200000x16_S16x2_S200000x2_1_0_0_1_n_n.contr.Idx) :
    (Cert.ReferenceIdeal.dot_S200000x16_S16x2_S200000x2_1_0_0_1_n_n.rhsIdx i q 1).val = (i 1).val := by
  unfold DotDims.rhsIdx
  rw [dif_neg (show ¬(1 : Fin S16x2.rank) ∈ Cert.ReferenceIdeal.dot_S200000x16_S16x2_S200000x2_1_0_0_1_n_n.rhsBatch by decide), dif_pos (show (1 : Fin S16x2.rank) ∈ Cert.ReferenceIdeal.dot_S200000x16_S16x2_S200000x2_1_0_0_1_n_n.rhsNonContracting by decide)]
  rfl

/-- The reference's whole product at an index, at the ideal values: the same sum over the contraction coordinate. -/
theorem ref4_apply (a0 : (⟨S200000x16, .f32⟩ : BufTy).Contents (Elt Ideal)) (a1 : (⟨S16x2, .f32⟩ : BufTy).Contents (Elt Ideal)) (i : S200000x2.Idx) :
    Host.dotGeneral (F := Ideal) (φ₁ := .f32) (φ₂ := .f32) Cert.ReferenceIdeal.dot_S200000x16_S16x2_S200000x2_1_0_0_1_n_n none a0 a1 i = ∑ k : Fin 16, a0 (al4 i k) * a1 (ar4 i k) := by
  simp only [Host.dotGeneral]
  rw [Ideal.dotGeneral_apply, ← Equiv.sum_comp (ValueIdx.contrEquiv1 Cert.ReferenceIdeal.dot_S200000x16_S16x2_S200000x2_1_0_0_1_n_n 16 rfl rfl).symm]
  refine Finset.sum_congr rfl fun k _ => ?_
  have hk := ValueIdx.contrEquiv1_symm_val Cert.ReferenceIdeal.dot_S200000x16_S16x2_S200000x2_1_0_0_1_n_n 16 rfl rfl k
  have el : Cert.ReferenceIdeal.dot_S200000x16_S16x2_S200000x2_1_0_0_1_n_n.lhsIdx i ((ValueIdx.contrEquiv1 Cert.ReferenceIdeal.dot_S200000x16_S16x2_S200000x2_1_0_0_1_n_n 16 rfl rfl).symm k) = al4 i k := funext fun a => Fin.ext (by
    match a with
    | ⟨0, _⟩ => exact alhs4_0 _ _
    | ⟨1, _⟩ => exact (alhs4_1 _ _).trans hk)
  have er : Cert.ReferenceIdeal.dot_S200000x16_S16x2_S200000x2_1_0_0_1_n_n.rhsIdx i ((ValueIdx.contrEquiv1 Cert.ReferenceIdeal.dot_S200000x16_S16x2_S200000x2_1_0_0_1_n_n 16 rfl rfl).symm k) = ar4 i k := funext fun a => Fin.ext (by
    match a with
    | ⟨0, _⟩ => exact (arhs4_0 _ _).trans hk
    | ⟨1, _⟩ => exact arhs4_1 _ _)
  rw [el, er]

/-- One element of one block. If the loaded blocks are the arrays read through placements `e0`, `e1`, and the
    placements carry the block product's operand indices at `j` to the whole product's at `e2 j`, then the payload at
    `j` is the whole product at `e2 j`. -/
theorem point4 (a0 : (⟨S200000x16, .f32⟩ : BufTy).Contents (Elt Ideal)) (a1 : (⟨S16x2, .f32⟩ : BufTy).Contents (Elt Ideal))
    (x0 : Vec Ideal S20000x16 .f32) (x1 : Vec Ideal S16x2 .f32)
    (e0 : S20000x16.Idx → S200000x16.Idx) (e1 : S16x2.Idx → S16x2.Idx) (e2 : S20000x2.Idx → S200000x2.Idx)
    (h0 : ∀ y, x0 y = a0 (e0 y)) (h1 : ∀ y, x1 y = a1 (e1 y))
    (he0 : ∀ j k, e0 (bl4 j k) = al4 (e2 j) k) (he1 : ∀ j k, e1 (br4 j k) = ar4 (e2 j) k)
    (j : S20000x2.Idx) :
    k4_pay1 (F := Ideal) x0 x1 j = Host.dotGeneral (F := Ideal) (φ₁ := .f32) (φ₂ := .f32) Cert.ReferenceIdeal.dot_S200000x16_S16x2_S200000x2_1_0_0_1_n_n none a0 a1 (e2 j) := by
  rw [pay4_apply, ref4_apply]
  exact Finset.sum_congr rfl fun k _ => by rw [h0, h1, he0, he1]

/-- The printed index maps, decided over the grid: point `t` takes row block `t` of the left array and of the result,
    and the one block of the weight. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem idx_onto4 : ∀ q : Fin 10, ∃ t : Fin cfg4.N, t.val = q.val :=
  (by decide +kernel : ∀ q : Fin 10, ∃ t : Fin grid4.N, t.val = q.val)

/-- What point `t` writes back is block `t` of the whole product of the two arrays as the region finds them. -/
theorem flushed4_eq (c : Dev nD) (t : Fin cfg4.N) :
    (dat4 (F := Ideal) V c).flushed 2 t
      = ((cfg4.win 2).blk t).view.read (Elt Ideal) (Host.dotGeneral (F := Ideal) (φ₁ := .f32) (φ₂ := .f32) Cert.ReferenceIdeal.dot_S200000x16_S16x2_S200000x2_1_0_0_1_n_n none (V c main_v49) (V c main_arg6)) := by
  show (cfg4.win 2).cut (grid4.coords t) ((dat4 V c).after 2 t) = _
  rw [after4_2]
  unfold out4_2
  rw [View.canon_unit_zero zero_off]
  simp only [View.ld_unit_zero (S := S20000x16) zero_off, View.ld_unit_zero (S := S16x2) zero_off]
  obtain ⟨e0, e1, e2, e3, e4, e5⟩ := idx_facts4 t
  funext j
  refine point4 (V c main_v49) (V c main_arg6) (iblk4 V c 0 t) (iblk4 V c 1 t)
    (fun y => ((cfg4.win 0).blk t).view.emb y) (fun y => ((cfg4.win 1).blk t).view.emb y)
    (fun y => ((cfg4.win 2).blk t).view.emb y) (fun y => rfl) (fun y => rfl) ?_ ?_ j
  · intro j k
    funext a; apply Fin.ext
    match a with
    | ⟨0, _⟩ => show win4_0.index t (0 : Fin 2) * 20000 + 1 * (j 0).val = win4_2.index t (0 : Fin 2) * 20000 + 1 * (j 0).val; omega
    | ⟨1, _⟩ => show win4_0.index t (1 : Fin 2) * 16 + 1 * k.val = k.val; omega
  · intro j k
    funext a; apply Fin.ext
    match a with
    | ⟨0, _⟩ => show win4_1.index t (0 : Fin 2) * 16 + 1 * k.val = k.val; omega
    | ⟨1, _⟩ => show win4_1.index t (1 : Fin 2) * 2 + 1 * (j 1).val = win4_2.index t (1 : Fin 2) * 2 + 1 * (j 1).val; omega

/-- An index of the result is in point `t`'s block iff each coordinate is in the block's range on its axis. -/
theorem mem_blk4 (t : Fin cfg4.N) (i : S200000x2.Idx) :
    i ∈ ((cfg4.win 2).blk t).view.set ↔ ∀ a : Fin 2, win4_2.index t a * S20000x2.size a ≤ (i a).val ∧ (i a).val < win4_2.index t a * S20000x2.size a + S20000x2.size a := by
  show i ∈ ((View.whole main_v50).slice (win4_2.rect t)).set ↔ _
  rw [View.set_slice_whole, Rect.mem_set_unit]
  exact Iff.rfl

/-- The ten row blocks tile the result: row `r` is in block `r / 20000`. -/
theorem cover4 (i : S200000x2.Idx) :
    ∃ t : Fin cfg4.N, (cfg4.win 2).flush t = true ∧ i ∈ ((cfg4.win 2).blk t).view.set := by
  have hi0 : (i 0).val < 200000 := (i 0).isLt
  have hi1 : (i 1).val < 2 := (i 1).isLt
  obtain ⟨t, ht⟩ := idx_onto4 ⟨(i 0).val / 20000, by omega⟩
  have ht' : t.val = (i 0).val / 20000 := ht
  obtain ⟨e0, e1, e2, e3, e4, e5⟩ := idx_facts4 t
  refine ⟨t, flush4_2 t, ?_⟩
  rw [mem_blk4]
  intro a
  match a with
  | ⟨0, _⟩ => show win4_2.index t (0 : Fin 2) * 20000 ≤ (i 0).val ∧ (i 0).val < win4_2.index t (0 : Fin 2) * 20000 + 20000; omega
  | ⟨1, _⟩ => show win4_2.index t (1 : Fin 2) * 2 ≤ (i 1).val ∧ (i 1).val < win4_2.index t (1 : Fin 2) * 2 + 2; omega

/-- The result array after region 4's run is the reference's whole product of the region's two input arrays. -/
theorem region4_array (c : Dev nD) :
    (dat4 (F := Ideal) V c).arrAt 2 cfg4.N
      = Host.dotGeneral (F := Ideal) (φ₁ := .f32) (φ₂ := .f32) Cert.ReferenceIdeal.dot_S200000x16_S16x2_S200000x2_1_0_0_1_n_n none (V c main_v49) (V c main_arg6) :=
  (dat4 (F := Ideal) V c).arrAt_eq_of_cover 2 _ (fun t _ => flushed4_eq V c t) (cover4)

end Cert.Bridge

end
-- ==== Proof.BiasRegions.lean ====
import proofs.«423043_j71803263254611_2_alg».proof.Proof.Gen.KernelIdeal.Frame
import proofs.«423043_j71803263254611_2_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.TcCoe Idealize.SL.Sem
open Cert.KernelIdeal Cert.KernelIdeal.Gen

/-- The pair of zero offsets is the zero function on the two axes. -/
theorem zero_pair : (![0, 0] : Fin 2 → Nat) = fun _ => 0 :=
  funext fun a => match a with
    | ⟨0, _⟩ => rfl
    | ⟨1, _⟩ => rfl

/-! ## A bias vector as a one-row matrix

The kernel reshapes the vector `b` to one row; the reference broadcasts it along a new leading axis of
size one. Both put `b k` at `(0, k)`. -/

/-- The column of an index of a one-row matrix of 32 columns, as an index of the vector. -/
abbrev col32 (i : S1x32.Idx) : S32.Idx := fun a => match a with
  | ⟨0, _⟩ => ⟨(i 1).val, (i 1).isLt⟩

/-- Reshaping a vector of 32 to one row is broadcasting it along a new unit leading axis. -/
theorem bias_row32 (b : FVec Ideal S32 .f32) :
    shapeCast S1x32 b shapeCasts_S32_S1x32
      = broadcastInDim Cert.ReferenceIdeal.S1x32 ![1] Cert.ReferenceIdeal.Gen.bcast_S32_S1x32_1 b := by
  funext i
  have h0 : (i 0).val < 1 := (i 0).isLt
  refine (shapeCast_apply b shapeCasts_S32_S1x32 i (col32 i) ?_).trans
    (broadcastInDim_apply _ Cert.ReferenceIdeal.Gen.bcast_S32_S1x32_1 b i (col32 i) fun a => ?_).symm
  · rewrite [Shape.rowMajor_val_two, Shape.rowMajor_val_one]
    show (i 1).val = (i 0).val * 32 + (i 1).val
    omega
  · match a with
    | ⟨0, _⟩ =>
      show (i 1).val = if (32 : Nat) = 1 then 0 else (i 1).val
      rw [if_neg (by decide)]

/-- The column of an index of a one-row matrix of 16 columns, as an index of the vector. -/
abbrev col16 (i : S1x16.Idx) : S16.Idx := fun a => match a with
  | ⟨0, _⟩ => ⟨(i 1).val, (i 1).isLt⟩

/-- Reshaping a vector of 16 to one row is broadcasting it along a new unit leading axis. -/
theorem bias_row16 (b : FVec Ideal S16 .f32) :
    shapeCast S1x16 b shapeCasts_S16_S1x16
      = broadcastInDim Cert.ReferenceIdeal.S1x16 ![1] Cert.ReferenceIdeal.Gen.bcast_S16_S1x16_1 b := by
  funext i
  have h0 : (i 0).val < 1 := (i 0).isLt
  refine (shapeCast_apply b shapeCasts_S16_S1x16 i (col16 i) ?_).trans
    (broadcastInDim_apply _ Cert.ReferenceIdeal.Gen.bcast_S16_S1x16_1 b i (col16 i) fun a => ?_).symm
  · rewrite [Shape.rowMajor_val_two, Shape.rowMajor_val_one]
    show (i 1).val = (i 0).val * 16 + (i 1).val
    omega
  · match a with
    | ⟨0, _⟩ =>
      show (i 1).val = if (16 : Nat) = 1 then 0 else (i 1).val
      rw [if_neg (by decide)]

/-- The column of an index of a one-row matrix of 2 columns, as an index of the vector. -/
abbrev col2 (i : S1x2.Idx) : S2.Idx := fun a => match a with
  | ⟨0, _⟩ => ⟨(i 1).val, (i 1).isLt⟩

/-- Reshaping a vector of 2 to one row is broadcasting it along a new unit leading axis. -/
theorem bias_row2 (b : FVec Ideal S2 .f32) :
    shapeCast S1x2 b shapeCasts_S2_S1x2
      = broadcastInDim Cert.ReferenceIdeal.S1x2 ![1] Cert.ReferenceIdeal.Gen.bcast_S2_S1x2_1 b := by
  funext i
  have h0 : (i 0).val < 1 := (i 0).isLt
  refine (shapeCast_apply b shapeCasts_S2_S1x2 i (col2 i) ?_).trans
    (broadcastInDim_apply _ Cert.ReferenceIdeal.Gen.bcast_S2_S1x2_1 b i (col2 i) fun a => ?_).symm
  · rewrite [Shape.rowMajor_val_two, Shape.rowMajor_val_one]
    show (i 1).val = (i 0).val * 2 + (i 1).val
    omega
  · match a with
    | ⟨0, _⟩ =>
      show (i 1).val = if (2 : Nat) = 1 then 0 else (i 1).val
      rw [if_neg (by decide)]

/-! ## Region 1: a block of 20000 rows of 32 columns plus the bias row, clamped at zero -/

section Regions

variable (V : (c : Dev nD) → (b : Ref sig .tc) → Buf (Elt Ideal) ((c : Thread nD τ).loc b))

/-- Row 0, column `n` of a one-row matrix of 32 columns. -/
abbrev row32 (n : Nat) (h : n < 32) : S1x32.Idx := fun a => match a with
  | ⟨0, _⟩ => ⟨0, Nat.one_pos⟩
  | ⟨1, _⟩ => ⟨n, h⟩

/-- The body's payload at an index of the block: the block's element plus the bias row's element of the same
    column, clamped below at zero. -/
theorem pay1_apply (x0 : FVec Ideal S20000x32 .f32) (x1 : FVec Ideal S1x32 .f32) (j : S20000x32.Idx) (k : S1x32.Idx)
    (hk0 : (k 0).val = 0) (hk1 : (k 1).val = (j 1).val) :
    k1_pay1 (F := Ideal) x0 x1 j
      = FloatOps.maximumf (F := Ideal) (FloatOps.addf (x0 j) (x1 k)) (FloatOps.ofBits .f32 0x00000000#32) := by
  show FloatOps.maximumf (F := Ideal) (FloatOps.addf (shapeCast S20000x32 x0 shapeCasts_S20000x32_S20000x32 j)
      (broadcastTo S20000x32 (shapeCast S1x32 x1 shapeCasts_S1x32_S1x32) broadcasts_S1x32_S20000x32 j))
      (FloatOps.ofBits .f32 0x00000000#32) = _
  rw [shapeCast_self, shapeCast_self,
    broadcastTo_apply x1 broadcasts_S1x32_S20000x32 j k (fun a => match a with
      | ⟨0, _⟩ => by
        show (k 0).val = if (1 : Nat) = 1 then 0 else (j 0).val
        rw [if_pos rfl]; exact hk0
      | ⟨1, _⟩ => by
        show (k 1).val = if (32 : Nat) = 1 then 0 else (j 1).val
        rw [if_neg (by decide)]; exact hk1)]

/-- The reference's whole-array expression at an index: the array's element plus the bias row's element of
    the same column, clamped below at zero. -/
theorem ref1_apply (a : FVec Ideal Cert.ReferenceIdeal.S200000x32 .f32) (b : FVec Ideal Cert.ReferenceIdeal.S1x32 .f32)
    (i : Cert.ReferenceIdeal.S200000x32.Idx) (k : Cert.ReferenceIdeal.S1x32.Idx)
    (hk0 : (k 0).val = 0) (hk1 : (k 1).val = (i 1).val) :
    maximumf (addf a (broadcastInDim Cert.ReferenceIdeal.S200000x32 ![0, 1] Cert.ReferenceIdeal.Gen.bcast_S1x32_S200000x32_0_1 b))
        (broadcastInDim Cert.ReferenceIdeal.S200000x32 ![] Cert.ReferenceIdeal.Gen.bcast_S_S200000x32
          (constant (F := Ideal) Cert.ReferenceIdeal.S_ .f32 0x00000000#32)) i
      = FloatOps.maximumf (F := Ideal) (FloatOps.addf (a i) (b k)) (FloatOps.ofBits .f32 0x00000000#32) := by
  show FloatOps.maximumf (F := Ideal) (FloatOps.addf (a i)
      (broadcastInDim Cert.ReferenceIdeal.S200000x32 ![0, 1] Cert.ReferenceIdeal.Gen.bcast_S1x32_S200000x32_0_1 b i))
      (FloatOps.ofBits .f32 0x00000000#32) = _
  rw [broadcastInDim_apply _ Cert.ReferenceIdeal.Gen.bcast_S1x32_S200000x32_0_1 b i k (fun a => match a with
      | ⟨0, _⟩ => by
        show (k 0).val = if (1 : Nat) = 1 then 0 else (i 0).val
        rw [if_pos rfl]; exact hk0
      | ⟨1, _⟩ => by
        show (k 1).val = if (32 : Nat) = 1 then 0 else (i 1).val
        rw [if_neg (by decide)]; exact hk1)]

/-- The array region 1 leaves: the reference's expression of the two arrays it reads. -/
abbrev G1 (a : FVec Ideal Cert.ReferenceIdeal.S200000x32 .f32) (b : FVec Ideal Cert.ReferenceIdeal.S1x32 .f32) :
    FVec Ideal Cert.ReferenceIdeal.S200000x32 .f32 :=
  maximumf (addf a (broadcastInDim Cert.ReferenceIdeal.S200000x32 ![0, 1] Cert.ReferenceIdeal.Gen.bcast_S1x32_S200000x32_0_1 b))
    (broadcastInDim Cert.ReferenceIdeal.S200000x32 ![] Cert.ReferenceIdeal.Gen.bcast_S_S200000x32
      (constant (F := Ideal) Cert.ReferenceIdeal.S_ .f32 0x00000000#32))

/-- The index maps over the ten grid points: the row blocks of the input and of the output are the point's,
    their column block is 0, and the bias row's block is (0, 0) throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block written back at point `t` is the reference's expression, of the arrays as the region finds them,
    restricted to that block. -/
theorem flushed1_eq (c : Dev nD) (t : Fin cfg1.N) :
    (dat1 (F := Ideal) V c).flushed 2 t
      = ((cfg1.win 2).blk t).view.read (Elt Ideal) (G1 (V c main_v37) (V c main_v38)) := by
  show (cfg1.win 2).cut (grid1.coords t) ((dat1 V c).after 2 t) = _
  rw [after1_2]
  unfold out1_2
  rw [View.canon_unit_zero zero_pair]
  simp only [View.ld_unit_zero (S := S20000x32) zero_pair, View.ld_unit_zero (S := S1x32) zero_pair]
  obtain ⟨e0, e1, e2, e3, e4, e5⟩ := idx_facts1 t
  funext j
  have hj0 : (j 0).val < 20000 := (j 0).isLt
  have hj1 : (j 1).val < 32 := (j 1).isLt
  show k1_pay1 (F := Ideal) (iblk1 V c 0 t) (iblk1 V c 1 t) j = G1 (V c main_v37) (V c main_v38) (((cfg1.win 2).blk t).view.emb j)
  refine (pay1_apply _ _ j (row32 (j 1).val hj1) rfl rfl).trans ?_
  refine Eq.trans ?_ (ref1_apply _ _ (((cfg1.win 2).blk t).view.emb j)
    (((cfg1.win 1).blk t).view.emb (row32 (j 1).val hj1)) ?_ ?_).symm
  · show FloatOps.maximumf (F := Ideal) (FloatOps.addf (V c main_v37 (((cfg1.win 0).blk t).view.emb j))
        (V c main_v38 (((cfg1.win 1).blk t).view.emb (row32 (j 1).val hj1)))) (FloatOps.ofBits .f32 0x00000000#32)
      = FloatOps.maximumf (F := Ideal) (FloatOps.addf (V c main_v37 (((cfg1.win 2).blk t).view.emb j))
        (V c main_v38 (((cfg1.win 1).blk t).view.emb (row32 (j 1).val hj1)))) (FloatOps.ofBits .f32 0x00000000#32)
    have h0 : ((cfg1.win 0).blk t).view.emb j = ((cfg1.win 2).blk t).view.emb j := by
      funext a; apply Fin.ext
      match a with
      | ⟨0, _⟩ =>
        show win1_0.index t (0 : Fin 2) * 20000 + 1 * (j 0).val = win1_2.index t (0 : Fin 2) * 20000 + 1 * (j 0).val
        omega
      | ⟨1, _⟩ =>
        show win1_0.index t (1 : Fin 2) * 32 + 1 * (j 1).val = win1_2.index t (1 : Fin 2) * 32 + 1 * (j 1).val
        omega
    rw [h0]
  · show win1_1.index t (0 : Fin 2) * 1 + 1 * 0 = 0
    omega
  · show win1_1.index t (1 : Fin 2) * 32 + 1 * (j 1).val = win1_2.index t (1 : Fin 2) * 32 + 1 * (j 1).val
    omega

/-- Membership in the block written at point `t`: on each axis the coordinate lies in the half-open range that starts at
    the block index times the block size and is one block size long. -/
theorem mem_blk1 (t : Fin cfg1.N) (i : S200000x32.Idx) :
    i ∈ ((cfg1.win 2).blk t).view.set ↔ ∀ a : Fin 2, win1_2.index t a * S20000x32.size a ≤ (i a).val
      ∧ (i a).val < win1_2.index t a * S20000x32.size a + S20000x32.size a := by
  show i ∈ ((View.whole main_v39).slice (win1_2.rect t)).set ↔ _
  rw [View.set_slice_whole, Rect.mem_set_unit]
  exact Iff.rfl

/-- The ten blocks of 20000 rows tile the 200000 rows: row `r` is in the block of point `r / 20000`. -/
theorem cover1 (i : S200000x32.Idx) :
    ∃ t : Fin cfg1.N, (cfg1.win 2).flush t = true ∧ i ∈ ((cfg1.win 2).blk t).view.set := by
  have hi0 : (i 0).val < 200000 := (i 0).isLt
  have hi1 : (i 1).val < 32 := (i 1).isLt
  have ht : (i 0).val / 20000 < cfg1.N := by
    show (i 0).val / 20000 < 10
    omega
  obtain ⟨e0, e1, e2, e3, e4, e5⟩ := idx_facts1 ⟨(i 0).val / 20000, ht⟩
  have e4' : win1_2.index ⟨(i 0).val / 20000, ht⟩ (0 : Fin 2) = (i 0).val / 20000 := e4
  refine ⟨⟨(i 0).val / 20000, ht⟩, flush1_2 _, ?_⟩
  rw [mem_blk1]
  intro a
  match a with
  | ⟨0, _⟩ =>
    show win1_2.index ⟨(i 0).val / 20000, ht⟩ (0 : Fin 2) * 20000 ≤ (i 0).val
      ∧ (i 0).val < win1_2.index ⟨(i 0).val / 20000, ht⟩ (0 : Fin 2) * 20000 + 20000
    omega
  | ⟨1, _⟩ =>
    show win1_2.index ⟨(i 0).val / 20000, ht⟩ (1 : Fin 2) * 32 ≤ (i 1).val
      ∧ (i 1).val < win1_2.index ⟨(i 0).val / 20000, ht⟩ (1 : Fin 2) * 32 + 32
    omega

/-- Region 1's output array after its run is the reference's expression of the two arrays it reads: the input rows plus the
    bias row broadcast over them, clamped below at zero. -/
theorem region1_array (c : Dev nD) :
    (dat1 (F := Ideal) V c).arrAt 2 cfg1.N
      = maximumf (addf (V c main_v37) (broadcastInDim Cert.ReferenceIdeal.S200000x32 ![0, 1] Cert.ReferenceIdeal.Gen.bcast_S1x32_S200000x32_0_1 (V c main_v38)))
          (broadcastInDim Cert.ReferenceIdeal.S200000x32 ![] Cert.ReferenceIdeal.Gen.bcast_S_S200000x32
            (constant (F := Ideal) Cert.ReferenceIdeal.S_ .f32 0x00000000#32)) :=
  (dat1 (F := Ideal) V c).arrAt_eq_of_cover 2 (G1 (V c main_v37) (V c main_v38)) (fun t _ => flushed1_eq V c t) cover1

/-! ## Region 3: a block of 20000 rows of 16 columns plus the bias row, clamped at zero -/

/-- Row 0, column `n` of a one-row matrix of 16 columns. -/
abbrev row16 (n : Nat) (h : n < 16) : S1x16.Idx := fun a => match a with
  | ⟨0, _⟩ => ⟨0, Nat.one_pos⟩
  | ⟨1, _⟩ => ⟨n, h⟩

/-- The body's payload at an index of the block: the block's element plus the bias row's element of the same
    column, clamped below at zero. -/
theorem pay3_apply (x0 : FVec Ideal S20000x16 .f32) (x1 : FVec Ideal S1x16 .f32) (j : S20000x16.Idx) (k : S1x16.Idx)
    (hk0 : (k 0).val = 0) (hk1 : (k 1).val = (j 1).val) :
    k3_pay1 (F := Ideal) x0 x1 j
      = FloatOps.maximumf (F := Ideal) (FloatOps.addf (x0 j) (x1 k)) (FloatOps.ofBits .f32 0x00000000#32) := by
  show FloatOps.maximumf (F := Ideal) (FloatOps.addf (shapeCast S20000x16 x0 shapeCasts_S20000x16_S20000x16 j)
      (broadcastTo S20000x16 (shapeCast S1x16 x1 shapeCasts_S1x16_S1x16) broadcasts_S1x16_S20000x16 j))
      (FloatOps.ofBits .f32 0x00000000#32) = _
  rw [shapeCast_self, shapeCast_self,
    broadcastTo_apply x1 broadcasts_S1x16_S20000x16 j k (fun a => match a with
      | ⟨0, _⟩ => by
        show (k 0).val = if (1 : Nat) = 1 then 0 else (j 0).val
        rw [if_pos rfl]; exact hk0
      | ⟨1, _⟩ => by
        show (k 1).val = if (16 : Nat) = 1 then 0 else (j 1).val
        rw [if_neg (by decide)]; exact hk1)]

/-- The reference's whole-array expression at an index: the array's element plus the bias row's element of
    the same column, clamped below at zero. -/
theorem ref3_apply (a : FVec Ideal Cert.ReferenceIdeal.S200000x16 .f32) (b : FVec Ideal Cert.ReferenceIdeal.S1x16 .f32)
    (i : Cert.ReferenceIdeal.S200000x16.Idx) (k : Cert.ReferenceIdeal.S1x16.Idx)
    (hk0 : (k 0).val = 0) (hk1 : (k 1).val = (i 1).val) :
    maximumf (addf a (broadcastInDim Cert.ReferenceIdeal.S200000x16 ![0, 1] Cert.ReferenceIdeal.Gen.bcast_S1x16_S200000x16_0_1 b))
        (broadcastInDim Cert.ReferenceIdeal.S200000x16 ![] Cert.ReferenceIdeal.Gen.bcast_S_S200000x16
          (constant (F := Ideal) Cert.ReferenceIdeal.S_ .f32 0x00000000#32)) i
      = FloatOps.maximumf (F := Ideal) (FloatOps.addf (a i) (b k)) (FloatOps.ofBits .f32 0x00000000#32) := by
  show FloatOps.maximumf (F := Ideal) (FloatOps.addf (a i)
      (broadcastInDim Cert.ReferenceIdeal.S200000x16 ![0, 1] Cert.ReferenceIdeal.Gen.bcast_S1x16_S200000x16_0_1 b i))
      (FloatOps.ofBits .f32 0x00000000#32) = _
  rw [broadcastInDim_apply _ Cert.ReferenceIdeal.Gen.bcast_S1x16_S200000x16_0_1 b i k (fun a => match a with
      | ⟨0, _⟩ => by
        show (k 0).val = if (1 : Nat) = 1 then 0 else (i 0).val
        rw [if_pos rfl]; exact hk0
      | ⟨1, _⟩ => by
        show (k 1).val = if (16 : Nat) = 1 then 0 else (i 1).val
        rw [if_neg (by decide)]; exact hk1)]

/-- The array region 3 leaves: the reference's expression of the two arrays it reads. -/
abbrev G3 (a : FVec Ideal Cert.ReferenceIdeal.S200000x16 .f32) (b : FVec Ideal Cert.ReferenceIdeal.S1x16 .f32) :
    FVec Ideal Cert.ReferenceIdeal.S200000x16 .f32 :=
  maximumf (addf a (broadcastInDim Cert.ReferenceIdeal.S200000x16 ![0, 1] Cert.ReferenceIdeal.Gen.bcast_S1x16_S200000x16_0_1 b))
    (broadcastInDim Cert.ReferenceIdeal.S200000x16 ![] Cert.ReferenceIdeal.Gen.bcast_S_S200000x16
      (constant (F := Ideal) Cert.ReferenceIdeal.S_ .f32 0x00000000#32))

/-- The index maps over the ten grid points: the row blocks of the input and of the output are the point's,
    their column block is 0, and the bias row's block is (0, 0) throughout. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block written back at point `t` is the reference's expression, of the arrays as the region finds them,
    restricted to that block. -/
theorem flushed3_eq (c : Dev nD) (t : Fin cfg3.N) :
    (dat3 (F := Ideal) V c).flushed 2 t
      = ((cfg3.win 2).blk t).view.read (Elt Ideal) (G3 (V c main_v47) (V c main_v48)) := by
  show (cfg3.win 2).cut (grid3.coords t) ((dat3 V c).after 2 t) = _
  rw [after3_2]
  unfold out3_2
  rw [View.canon_unit_zero zero_pair]
  simp only [View.ld_unit_zero (S := S20000x16) zero_pair, View.ld_unit_zero (S := S1x16) zero_pair]
  obtain ⟨e0, e1, e2, e3, e4, e5⟩ := idx_facts3 t
  funext j
  have hj0 : (j 0).val < 20000 := (j 0).isLt
  have hj1 : (j 1).val < 16 := (j 1).isLt
  show k3_pay1 (F := Ideal) (iblk3 V c 0 t) (iblk3 V c 1 t) j = G3 (V c main_v47) (V c main_v48) (((cfg3.win 2).blk t).view.emb j)
  refine (pay3_apply _ _ j (row16 (j 1).val hj1) rfl rfl).trans ?_
  refine Eq.trans ?_ (ref3_apply _ _ (((cfg3.win 2).blk t).view.emb j)
    (((cfg3.win 1).blk t).view.emb (row16 (j 1).val hj1)) ?_ ?_).symm
  · show FloatOps.maximumf (F := Ideal) (FloatOps.addf (V c main_v47 (((cfg3.win 0).blk t).view.emb j))
        (V c main_v48 (((cfg3.win 1).blk t).view.emb (row16 (j 1).val hj1)))) (FloatOps.ofBits .f32 0x00000000#32)
      = FloatOps.maximumf (F := Ideal) (FloatOps.addf (V c main_v47 (((cfg3.win 2).blk t).view.emb j))
        (V c main_v48 (((cfg3.win 1).blk t).view.emb (row16 (j 1).val hj1)))) (FloatOps.ofBits .f32 0x00000000#32)
    have h0 : ((cfg3.win 0).blk t).view.emb j = ((cfg3.win 2).blk t).view.emb j := by
      funext a; apply Fin.ext
      match a with
      | ⟨0, _⟩ =>
        show win3_0.index t (0 : Fin 2) * 20000 + 1 * (j 0).val = win3_2.index t (0 : Fin 2) * 20000 + 1 * (j 0).val
        omega
      | ⟨1, _⟩ =>
        show win3_0.index t (1 : Fin 2) * 16 + 1 * (j 1).val = win3_2.index t (1 : Fin 2) * 16 + 1 * (j 1).val
        omega
    rw [h0]
  · show win3_1.index t (0 : Fin 2) * 1 + 1 * 0 = 0
    omega
  · show win3_1.index t (1 : Fin 2) * 16 + 1 * (j 1).val = win3_2.index t (1 : Fin 2) * 16 + 1 * (j 1).val
    omega

/-- Membership in the block written at point `t`: on each axis the coordinate lies in the half-open range that starts at
    the block index times the block size and is one block size long. -/
theorem mem_blk3 (t : Fin cfg3.N) (i : S200000x16.Idx) :
    i ∈ ((cfg3.win 2).blk t).view.set ↔ ∀ a : Fin 2, win3_2.index t a * S20000x16.size a ≤ (i a).val
      ∧ (i a).val < win3_2.index t a * S20000x16.size a + S20000x16.size a := by
  show i ∈ ((View.whole main_v49).slice (win3_2.rect t)).set ↔ _
  rw [View.set_slice_whole, Rect.mem_set_unit]
  exact Iff.rfl

/-- The ten blocks of 20000 rows tile the 200000 rows: row `r` is in the block of point `r / 20000`. -/
theorem cover3 (i : S200000x16.Idx) :
    ∃ t : Fin cfg3.N, (cfg3.win 2).flush t = true ∧ i ∈ ((cfg3.win 2).blk t).view.set := by
  have hi0 : (i 0).val < 200000 := (i 0).isLt
  have hi1 : (i 1).val < 16 := (i 1).isLt
  have ht : (i 0).val / 20000 < cfg3.N := by
    show (i 0).val / 20000 < 10
    omega
  obtain ⟨e0, e1, e2, e3, e4, e5⟩ := idx_facts3 ⟨(i 0).val / 20000, ht⟩
  have e4' : win3_2.index ⟨(i 0).val / 20000, ht⟩ (0 : Fin 2) = (i 0).val / 20000 := e4
  refine ⟨⟨(i 0).val / 20000, ht⟩, flush3_2 _, ?_⟩
  rw [mem_blk3]
  intro a
  match a with
  | ⟨0, _⟩ =>
    show win3_2.index ⟨(i 0).val / 20000, ht⟩ (0 : Fin 2) * 20000 ≤ (i 0).val
      ∧ (i 0).val < win3_2.index ⟨(i 0).val / 20000, ht⟩ (0 : Fin 2) * 20000 + 20000
    omega
  | ⟨1, _⟩ =>
    show win3_2.index ⟨(i 0).val / 20000, ht⟩ (1 : Fin 2) * 16 ≤ (i 1).val
      ∧ (i 1).val < win3_2.index ⟨(i 0).val / 20000, ht⟩ (1 : Fin 2) * 16 + 16
    omega

/-- Region 3's output array after its run is the reference's expression of the two arrays it reads: the input rows plus the
    bias row broadcast over them, clamped below at zero. -/
theorem region3_array (c : Dev nD) :
    (dat3 (F := Ideal) V c).arrAt 2 cfg3.N
      = maximumf (addf (V c main_v47) (broadcastInDim Cert.ReferenceIdeal.S200000x16 ![0, 1] Cert.ReferenceIdeal.Gen.bcast_S1x16_S200000x16_0_1 (V c main_v48)))
          (broadcastInDim Cert.ReferenceIdeal.S200000x16 ![] Cert.ReferenceIdeal.Gen.bcast_S_S200000x16
            (constant (F := Ideal) Cert.ReferenceIdeal.S_ .f32 0x00000000#32)) :=
  (dat3 (F := Ideal) V c).arrAt_eq_of_cover 2 (G3 (V c main_v47) (V c main_v48)) (fun t _ => flushed3_eq V c t) cover3

/-! ## Region 5: a block of 20000 rows of 2 columns plus the bias row -/

/-- Row 0, column `n` of a one-row matrix of 2 columns. -/
abbrev row2 (n : Nat) (h : n < 2) : S1x2.Idx := fun a => match a with
  | ⟨0, _⟩ => ⟨0, Nat.one_pos⟩
  | ⟨1, _⟩ => ⟨n, h⟩

/-- The body's payload at an index of the block: the block's element plus the bias row's element of the same
    column. -/
theorem pay5_apply (x0 : FVec Ideal S20000x2 .f32) (x1 : FVec Ideal S1x2 .f32) (j : S20000x2.Idx) (k : S1x2.Idx)
    (hk0 : (k 0).val = 0) (hk1 : (k 1).val = (j 1).val) :
    k5_pay1 (F := Ideal) x0 x1 j
      = FloatOps.addf (F := Ideal) (x0 j) (x1 k) := by
  show FloatOps.addf (F := Ideal) (shapeCast S20000x2 x0 shapeCasts_S20000x2_S20000x2 j)
      (broadcastTo S20000x2 (shapeCast S1x2 x1 shapeCasts_S1x2_S1x2) broadcasts_S1x2_S20000x2 j) = _
  rw [shapeCast_self, shapeCast_self,
    broadcastTo_apply x1 broadcasts_S1x2_S20000x2 j k (fun a => match a with
      | ⟨0, _⟩ => by
        show (k 0).val = if (1 : Nat) = 1 then 0 else (j 0).val
        rw [if_pos rfl]; exact hk0
      | ⟨1, _⟩ => by
        show (k 1).val = if (2 : Nat) = 1 then 0 else (j 1).val
        rw [if_neg (by decide)]; exact hk1)]

/-- The reference's whole-array expression at an index: the array's element plus the bias row's element of
    the same column. -/
theorem ref5_apply (a : FVec Ideal Cert.ReferenceIdeal.S200000x2 .f32) (b : FVec Ideal Cert.ReferenceIdeal.S1x2 .f32)
    (i : Cert.ReferenceIdeal.S200000x2.Idx) (k : Cert.ReferenceIdeal.S1x2.Idx)
    (hk0 : (k 0).val = 0) (hk1 : (k 1).val = (i 1).val) :
    addf a (broadcastInDim Cert.ReferenceIdeal.S200000x2 ![0, 1] Cert.ReferenceIdeal.Gen.bcast_S1x2_S200000x2_0_1 b) i
      = FloatOps.addf (F := Ideal) (a i) (b k) := by
  show FloatOps.addf (F := Ideal) (a i)
      (broadcastInDim Cert.ReferenceIdeal.S200000x2 ![0, 1] Cert.ReferenceIdeal.Gen.bcast_S1x2_S200000x2_0_1 b i) = _
  rw [broadcastInDim_apply _ Cert.ReferenceIdeal.Gen.bcast_S1x2_S200000x2_0_1 b i k (fun a => match a with
      | ⟨0, _⟩ => by
        show (k 0).val = if (1 : Nat) = 1 then 0 else (i 0).val
        rw [if_pos rfl]; exact hk0
      | ⟨1, _⟩ => by
        show (k 1).val = if (2 : Nat) = 1 then 0 else (i 1).val
        rw [if_neg (by decide)]; exact hk1)]

/-- The array region 5 leaves: the reference's expression of the two arrays it reads. -/
abbrev G5 (a : FVec Ideal Cert.ReferenceIdeal.S200000x2 .f32) (b : FVec Ideal Cert.ReferenceIdeal.S1x2 .f32) :
    FVec Ideal Cert.ReferenceIdeal.S200000x2 .f32 :=
  addf a (broadcastInDim Cert.ReferenceIdeal.S200000x2 ![0, 1] Cert.ReferenceIdeal.Gen.bcast_S1x2_S200000x2_0_1 b)

/-- The index maps over the ten grid points: the row blocks of the input and of the output are the point's,
    their column block is 0, and the bias row's block is (0, 0) throughout. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The block written back at point `t` is the reference's expression, of the arrays as the region finds them,
    restricted to that block. -/
theorem flushed5_eq (c : Dev nD) (t : Fin cfg5.N) :
    (dat5 (F := Ideal) V c).flushed 2 t
      = ((cfg5.win 2).blk t).view.read (Elt Ideal) (G5 (V c main_v50) (V c main_v51)) := by
  show (cfg5.win 2).cut (grid5.coords t) ((dat5 V c).after 2 t) = _
  rw [after5_2]
  unfold out5_2
  rw [View.canon_unit_zero zero_pair]
  simp only [View.ld_unit_zero (S := S20000x2) zero_pair, View.ld_unit_zero (S := S1x2) zero_pair]
  obtain ⟨e0, e1, e2, e3, e4, e5⟩ := idx_facts5 t
  funext j
  have hj0 : (j 0).val < 20000 := (j 0).isLt
  have hj1 : (j 1).val < 2 := (j 1).isLt
  show k5_pay1 (F := Ideal) (iblk5 V c 0 t) (iblk5 V c 1 t) j = G5 (V c main_v50) (V c main_v51) (((cfg5.win 2).blk t).view.emb j)
  refine (pay5_apply _ _ j (row2 (j 1).val hj1) rfl rfl).trans ?_
  refine Eq.trans ?_ (ref5_apply _ _ (((cfg5.win 2).blk t).view.emb j)
    (((cfg5.win 1).blk t).view.emb (row2 (j 1).val hj1)) ?_ ?_).symm
  · show FloatOps.addf (F := Ideal) (V c main_v50 (((cfg5.win 0).blk t).view.emb j))
        (V c main_v51 (((cfg5.win 1).blk t).view.emb (row2 (j 1).val hj1)))
      = FloatOps.addf (F := Ideal) (V c main_v50 (((cfg5.win 2).blk t).view.emb j))
        (V c main_v51 (((cfg5.win 1).blk t).view.emb (row2 (j 1).val hj1)))
    have h0 : ((cfg5.win 0).blk t).view.emb j = ((cfg5.win 2).blk t).view.emb j := by
      funext a; apply Fin.ext
      match a with
      | ⟨0, _⟩ =>
        show win5_0.index t (0 : Fin 2) * 20000 + 1 * (j 0).val = win5_2.index t (0 : Fin 2) * 20000 + 1 * (j 0).val
        omega
      | ⟨1, _⟩ =>
        show win5_0.index t (1 : Fin 2) * 2 + 1 * (j 1).val = win5_2.index t (1 : Fin 2) * 2 + 1 * (j 1).val
        omega
    rw [h0]
  · show win5_1.index t (0 : Fin 2) * 1 + 1 * 0 = 0
    omega
  · show win5_1.index t (1 : Fin 2) * 2 + 1 * (j 1).val = win5_2.index t (1 : Fin 2) * 2 + 1 * (j 1).val
    omega

/-- Membership in the block written at point `t`: on each axis the coordinate lies in the half-open range that starts at
    the block index times the block size and is one block size long. -/
theorem mem_blk5 (t : Fin cfg5.N) (i : S200000x2.Idx) :
    i ∈ ((cfg5.win 2).blk t).view.set ↔ ∀ a : Fin 2, win5_2.index t a * S20000x2.size a ≤ (i a).val
      ∧ (i a).val < win5_2.index t a * S20000x2.size a + S20000x2.size a := by
  show i ∈ ((View.whole main_v52).slice (win5_2.rect t)).set ↔ _
  rw [View.set_slice_whole, Rect.mem_set_unit]
  exact Iff.rfl

/-- The ten blocks of 20000 rows tile the 200000 rows: row `r` is in the block of point `r / 20000`. -/
theorem cover5 (i : S200000x2.Idx) :
    ∃ t : Fin cfg5.N, (cfg5.win 2).flush t = true ∧ i ∈ ((cfg5.win 2).blk t).view.set := by
  have hi0 : (i 0).val < 200000 := (i 0).isLt
  have hi1 : (i 1).val < 2 := (i 1).isLt
  have ht : (i 0).val / 20000 < cfg5.N := by
    show (i 0).val / 20000 < 10
    omega
  obtain ⟨e0, e1, e2, e3, e4, e5⟩ := idx_facts5 ⟨(i 0).val / 20000, ht⟩
  have e4' : win5_2.index ⟨(i 0).val / 20000, ht⟩ (0 : Fin 2) = (i 0).val / 20000 := e4
  refine ⟨⟨(i 0).val / 20000, ht⟩, flush5_2 _, ?_⟩
  rw [mem_blk5]
  intro a
  match a with
  | ⟨0, _⟩ =>
    show win5_2.index ⟨(i 0).val / 20000, ht⟩ (0 : Fin 2) * 20000 ≤ (i 0).val
      ∧ (i 0).val < win5_2.index ⟨(i 0).val / 20000, ht⟩ (0 : Fin 2) * 20000 + 20000
    omega
  | ⟨1, _⟩ =>
    show win5_2.index ⟨(i 0).val / 20000, ht⟩ (1 : Fin 2) * 2 ≤ (i 1).val
      ∧ (i 1).val < win5_2.index ⟨(i 0).val / 20000, ht⟩ (1 : Fin 2) * 2 + 2
    omega

/-- Region 5's output array after its run is the reference's expression of the two arrays it reads: the input rows plus the
    bias row broadcast over them. -/
theorem region5_array (c : Dev nD) :
    (dat5 (F := Ideal) V c).arrAt 2 cfg5.N
      = addf (F := Ideal) (φ := .f32) (V c main_v50) (broadcastInDim Cert.ReferenceIdeal.S200000x2 ![0, 1] Cert.ReferenceIdeal.Gen.bcast_S1x2_S200000x2_0_1 (V c main_v51)) :=
  (dat5 (F := Ideal) V c).arrAt_eq_of_cover 2 (G5 (V c main_v50) (V c main_v51)) (fun t _ => flushed5_eq V c t) cover5

end Regions

end Cert.Bridge

end
-- ==== Proof.IndexRange.lean ====
import proofs.«423043_j71803263254611_2_alg».proof.Proof.Gen.KernelIdeal
import proofs.«423043_j71803263254611_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

/-!
The index range. The precondition states that every entry of the integer input lies in [0, 200000) as a
signed word; the programs then read a vector of 6600000 indices, row 0 of that input followed by the
positions 0, 1, …, 199999. Every entry of that vector is again in [0, 200000).
-/

set_option maxRecDepth 16384

noncomputable section

namespace Cert.Bridge

open Idealize.ShloMosaic Idealize.ShloMosaic.TcCoe Idealize.SL.Sem
open Idealize.ShloMosaic.ValueIdx
open Cert.KernelIdeal.Facts₀

/-- The scalar shape has exactly one index. -/
local instance IndexRange.scalarIdx_subsingleton : Subsingleton Cert.Pre_finite_inputs.S_.Idx := ⟨fun a b => funext fun d => d.elim0⟩

/-- The precondition read at one entry of the integer input: the entry lies in [0, 200000), signed. -/
theorem edge_in_range (x : FVec Ideal Cert.Pre_finite_inputs.S200000x7 .f32) (e : IVec Cert.Pre_finite_inputs.S2x6400000 32)
    (w1 : FVec Ideal Cert.Pre_finite_inputs.S7x32 .f32) (b1 : FVec Ideal Cert.Pre_finite_inputs.S32 .f32)
    (w2 : FVec Ideal Cert.Pre_finite_inputs.S32x16 .f32) (b2 : FVec Ideal Cert.Pre_finite_inputs.S16 .f32)
    (wfc : FVec Ideal Cert.Pre_finite_inputs.S16x2 .f32) (bfc : FVec Ideal Cert.Pre_finite_inputs.S2 .f32)
    (hpre : Cert.Pre_finite_inputs.fn (F := Ideal) x e w1 b1 w2 b2 wfc bfc = (fun _ => 1#1)) :
    ∀ j : Cert.Pre_finite_inputs.S2x6400000.Idx, 0 ≤ (e j).toInt ∧ (e j).toInt < 200000 := by
  intro j
  -- the predicate's one value is a conjunction whose last conjunct is the "all" over the integer input
  have h0 := congrFun hpre ix0
  dsimp only [Cert.Pre_finite_inputs.fn, Cert.Pre_finite_inputs.fn_part1, Cert.Pre_finite_inputs.fn_part2] at h0
  have h1 := (IntOp.andi_eq_one.1 h0).2
  -- an "all" that holds, holds at j: both comparisons of e j are true
  have h2 := Host.reduce_andi_all _ _ _ _ _ h1 j
  obtain ⟨ha, hb⟩ := IntOp.andi_eq_one.1 h2
  have ha' : (0#32 : BitVec 32).toInt ≤ (e j).toInt := IntOp.cmpi_sge.1 ha
  have hb' : (e j).toInt < (200000#32 : BitVec 32).toInt := IntOp.cmpi_slt.1 hb
  have z0 : (0#32 : BitVec 32).toInt = 0 := by decide
  have z1 : (200000#32 : BitVec 32).toInt = 200000 := by decide
  rw [z0] at ha'
  rw [z1] at hb'
  exact ⟨ha', hb'⟩

/-- The index vector both programs read: row 0 of the integer input, then the positions 0, 1, …, 199999. -/
abbrev srcIdx (e : IVec Cert.KernelIdeal.S2x6400000 32) : IVec Cert.KernelIdeal.S6600000 32 :=
  concatenate Cert.KernelIdeal.S6600000 0
    [⟨Cert.KernelIdeal.S6400000,
        shapeCast Cert.KernelIdeal.S6400000
          (extractStridedSlice Cert.KernelIdeal.S1x6400000 ![0, 0] e slices_S2x6400000_S1x6400000_0_0)
          shapeCasts_S1x6400000_S6400000⟩,
      ⟨Cert.KernelIdeal.S200000, iotaInDim Cert.KernelIdeal.S200000 32 0⟩]
    concatenates_S6400000_S200000_S6600000_d0

/-- Below position 6400000 the index vector is row 0 of the integer input at that column. -/
theorem srcIdx_left (e : IVec Cert.KernelIdeal.S2x6400000 32) (j : Cert.KernelIdeal.S6600000.Idx)
    (hj : (j 0).val < 6400000) :
    srcIdx e j = e (ix2 (0 : Fin 2) (⟨(j 0).val, hj⟩ : Fin 6400000)) := by
  unfold srcIdx
  refine (concatenate_pair_apply_left (t := Cert.KernelIdeal.S6600000) (s₁ := Cert.KernelIdeal.S6400000)
    (s₂ := Cert.KernelIdeal.S200000) _ _ _ _ j rfl (ix1 (⟨(j 0).val, hj⟩ : Fin 6400000))
    (fun b => match b with | ⟨0, _⟩ => rfl)).trans ?_
  refine (shapeCast_apply _ _ _ (ix2 (0 : Fin 1) (⟨(j 0).val, hj⟩ : Fin 6400000)) ?_).trans ?_
  · rw [Shape.rowMajor_val_two, Shape.rowMajor_val_one]
    show 0 * _ + (j 0).val = (j 0).val
    omega
  · refine extractStridedSlice_apply _ _ _ _ _ (fun a => ?_)
    match a with
    | ⟨0, _⟩ => rfl
    | ⟨1, _⟩ =>
      show (j 0).val = 0 + (j 0).val
      omega

/-- From position 6400000 on the index vector is the position less 6400000. -/
theorem srcIdx_right (e : IVec Cert.KernelIdeal.S2x6400000 32) (j : Cert.KernelIdeal.S6600000.Idx)
    (hj : 6400000 ≤ (j 0).val) :
    srcIdx e j = BitVec.ofNat 32 ((j 0).val - 6400000) := by
  have hlt : (j 0).val < 6600000 := (j 0).isLt
  unfold srcIdx
  refine (concatenate_pair_apply_right (t := Cert.KernelIdeal.S6600000) (s₁ := Cert.KernelIdeal.S6400000)
    (s₂ := Cert.KernelIdeal.S200000) _ _ _ _ j rfl rfl (ix1 (⟨(j 0).val - 6400000, by omega⟩ : Fin 200000))
    (fun b hb => absurd (Subsingleton.elim _ _) hb) ?_).trans rfl
  show (j 0).val - 6400000 + 6400000 = (j 0).val
  omega

/-- Every entry of the index vector lies in [0, 200000), signed, when every entry of the integer input does. -/
theorem src_in_range (e : IVec Cert.KernelIdeal.S2x6400000 32)
    (he : ∀ j : Cert.KernelIdeal.S2x6400000.Idx, 0 ≤ (e j).toInt ∧ (e j).toInt < 200000) :
    ∀ j : Cert.KernelIdeal.S6600000.Idx, 0 ≤ (srcIdx e j).toInt ∧ (srcIdx e j).toInt < 200000 := by
  intro j
  have hlt : (j 0).val < 6600000 := (j 0).isLt
  by_cases hj : (j 0).val < 6400000
  · rw [srcIdx_left e j hj]
    exact he _
  · rw [srcIdx_right e j (Nat.le_of_not_lt hj),
      StableHlo.Predicate.toInt_ofNat_small _ (by omega)]
    omega

end Cert.Bridge

end
-- ==== Proof.Chain.lean ====
import proofs.«423043_j71803263254611_2_alg».proof.Defs
import proofs.«423043_j71803263254611_2_alg».proof.Proof.Gen.KernelIdeal.Frame
import proofs.«423043_j71803263254611_2_alg».proof.Proof.Gen.Pre_finite_inputs
import proofs.«423043_j71803263254611_2_alg».proof.Proof.RefRead
import proofs.«423043_j71803263254611_2_alg».proof.Proof.ReadEntry
import proofs.«423043_j71803263254611_2_alg».proof.Proof.ReadLayer1
import proofs.«423043_j71803263254611_2_alg».proof.Proof.ReadLayer2
import proofs.«423043_j71803263254611_2_alg».proof.Proof.Stages
import proofs.«423043_j71803263254611_2_alg».proof.Proof.MatmulRegions
import proofs.«423043_j71803263254611_2_alg».proof.Proof.BiasRegions
import proofs.«423043_j71803263254611_2_alg».proof.Proof.TakeInRange
import proofs.«423043_j71803263254611_2_alg».proof.Proof.IndexRange

set_option maxRecDepth 16384
set_option maxHeartbeats 2000000

noncomputable section
namespace Cert.Bridge
open Idealize.ShloMosaic Idealize.ShloMosaic.TcCoe Idealize.SL.Sem Idealize.ShloMosaic.StableHlo
open Cert.KernelIdeal Cert.KernelIdeal.Gen

/-! ## The kernel program's result is the reference's, over the extended reals

Both programs are two graph-convolution layers and a linear read-out: `relu (A (h · W) + b)` twice, then `h · Wfc + bfc`,
with `A` the aggregation `out[d] += h[s] · dinv[s] · dinv[d]` over the edges and the self loops. The kernel program
computes each `h · W` and each `· + b` (with its clamp) block of 20000 rows by block of 20000 rows; at the ideal instance
a block's rows are the rows of the whole product, so each region's array is the reference's stage. The one difference in
the host operations is the gather of `h[s]`: the kernel program's fills a row whose index is out of range, the
reference's clamps the index; with every index in range (the precondition) neither happens and the rows are the same.
So buffer by buffer, in program order, the kernel program's contents are the reference's stages of the arguments. -/

variable (m : (ℓ : Loc nD τ sig) → Buf (Elt Ideal) ℓ) (ρ : Dev nD → PrngReg)

/-- The arguments as launched, on core `c`. -/
abbrev aX (c : Dev nD) := m ((c : Thread nD τ).loc main_arg0)
abbrev aE (c : Dev nD) := m ((c : Thread nD τ).loc main_arg1)
abbrev aW1 (c : Dev nD) := m ((c : Thread nD τ).loc main_arg2)
abbrev aB1 (c : Dev nD) := m ((c : Thread nD τ).loc main_arg3)
abbrev aW2 (c : Dev nD) := m ((c : Thread nD τ).loc main_arg4)
abbrev aB2 (c : Dev nD) := m ((c : Thread nD τ).loc main_arg5)
abbrev aWf (c : Dev nD) := m ((c : Thread nD τ).loc main_arg6)
abbrev aBf (c : Dev nD) := m ((c : Thread nD τ).loc main_arg7)

/-- Every source index (row 0 of `edge_index`, then the self loops) is a node: in `[0, 200000)`. -/
def SrcOk (c : Dev nD) : Prop :=
  ∀ j : S6600000.Idx, 0 ≤ (Cert.ReferenceIdeal.ReadP.val_main_v5 (F := Ideal) (aE m c) j).toInt ∧ (Cert.ReferenceIdeal.ReadP.val_main_v5 (F := Ideal) (aE m c) j).toInt < 200000

/-- The precondition gives it: every entry of `edge_index` is in range, and so is every self-loop index. -/
theorem srcOk_of_pre (hpre : Cert.Pre_KernelIdeal m) (c : Dev nD) : SrcOk m c :=
  src_in_range (aE m c) (edge_in_range _ _ _ _ _ _ _ _ (hpre c))

/-- Region 0: `x · W1`. -/
theorem r0 (c : Dev nD) : W4 (F := Ideal) m ρ c (Proc.devRef .tc main_v30) = Cert.ReferenceIdeal.ReadP.val_main_v15 (F := Ideal) (aX m c) (aW1 m c) := by
  refine (W4_arr m ρ c 2).trans ((region0_array (V3 m ρ) c).trans ?_)
  show Host.dotGeneral (F := Ideal) (φ₁ := .f32) (φ₂ := .f32) _ none (W3 (F := Ideal) m ρ c (Proc.devRef .tc main_arg0)) (W3 (F := Ideal) m ρ c (Proc.devRef .tc main_arg2)) = _
  rw [x3 m ρ c, w3 m ρ c]
  rfl

/-- Layer 1's gathered rows: with the source indices in range the fill is never selected. -/
theorem t1 (c : Dev nD) (hs : SrcOk m c) : W5 (F := Ideal) m ρ c (Proc.devRef .tc main_v31) = Cert.ReferenceIdeal.ReadP.val_main_v37 (F := Ideal) (aX m c) (aE m c) (aW1 m c) := by
  refine (take1_read m ρ c).trans ?_
  rw [v5_W4 m ρ c, s3 m ρ c, r0 m ρ c]
  exact (take_eq_gather32 _ _ hs).trans (st_take1 _ _ _)

/-- Layer 1's aggregation. -/
theorem a1 (c : Dev nD) (hs : SrcOk m c) : W6 (F := Ideal) m ρ c (Proc.devRef .tc main_v37) = Cert.ReferenceIdeal.ReadP.val_main_v43 (F := Ideal) (aX m c) (aE m c) (aW1 m c) := by
  refine (agg1_read m ρ c).trans ?_
  rw [v6_W5 m ρ c, d3 m ρ c, t1 m ρ c hs, v29_W5 m ρ c, n3 m ρ c]
  exact st_agg1 _ _ _

/-- The first bias as a row. -/
theorem b1 (c : Dev nD) : W6 (F := Ideal) m ρ c (Proc.devRef .tc main_v38) = Cert.ReferenceIdeal.ReadP.val_main_v44 (F := Ideal) (aB1 m c) := by
  refine (b1_read m ρ c).trans ?_
  rw [arg3_W5 m ρ c]
  exact (bias_row32 _).trans (st_b1 _)

/-- Region 1: `relu (agg1 + b1)`. -/
theorem r1 (c : Dev nD) (hs : SrcOk m c) : W7 (F := Ideal) m ρ c (Proc.devRef .tc main_v39) = Cert.ReferenceIdeal.ReadP.val_main_v47 (F := Ideal) (aX m c) (aE m c) (aW1 m c) (aB1 m c) := by
  refine (W7_arr m ρ c 2).trans ((region1_array (V6 m ρ) c).trans ?_)
  dsimp only [V6]
  rw [a1 m ρ c hs, b1 m ρ c]
  exact st_r1 _ _ _ _

/-- Region 2: `h1 · W2`. -/
theorem r2 (c : Dev nD) (hs : SrcOk m c) : W8 (F := Ideal) m ρ c (Proc.devRef .tc main_v40) = Cert.ReferenceIdeal.ReadP.val_main_v59 (F := Ideal) (aX m c) (aE m c) (aW1 m c) (aB1 m c) (aW2 m c) := by
  refine (W8_arr m ρ c 2).trans ((region2_array (V7 m ρ) c).trans ?_)
  show Host.dotGeneral (F := Ideal) (φ₁ := .f32) (φ₂ := .f32) _ none (W7 (F := Ideal) m ρ c (Proc.devRef .tc main_v39)) (W7 (F := Ideal) m ρ c (Proc.devRef .tc main_arg4)) = _
  rw [r1 m ρ c hs, arg4_W7 m ρ c]
  exact st_r2 _ _ _ _ _

/-- Layer 2's gathered rows. -/
theorem t2 (c : Dev nD) (hs : SrcOk m c) : W9 (F := Ideal) m ρ c (Proc.devRef .tc main_v41) = Cert.ReferenceIdeal.ReadP.val_main_v81 (F := Ideal) (aX m c) (aE m c) (aW1 m c) (aB1 m c) (aW2 m c) := by
  refine (take2_read m ρ c).trans ?_
  rw [v5_W8 m ρ c, s3 m ρ c, r2 m ρ c hs]
  exact (take_eq_gather16 _ _ hs).trans (st_take2 _ _ _ _ _)

/-- Layer 2's aggregation. -/
theorem a2 (c : Dev nD) (hs : SrcOk m c) : W10 (F := Ideal) m ρ c (Proc.devRef .tc main_v47) = Cert.ReferenceIdeal.ReadP.val_main_v87 (F := Ideal) (aX m c) (aE m c) (aW1 m c) (aB1 m c) (aW2 m c) := by
  refine (agg2_read m ρ c).trans ?_
  rw [v6_W9 m ρ c, d3 m ρ c, t2 m ρ c hs, v29_W9 m ρ c, n3 m ρ c]
  exact st_agg2 _ _ _ _ _

/-- The second bias as a row. -/
theorem b2 (c : Dev nD) : W10 (F := Ideal) m ρ c (Proc.devRef .tc main_v48) = Cert.ReferenceIdeal.ReadP.val_main_v88 (F := Ideal) (aB2 m c) := by
  refine (b2_read m ρ c).trans ?_
  rw [arg5_W9 m ρ c]
  exact (bias_row16 _).trans (st_b2 _)

/-- Region 3: `relu (agg2 + b2)`. -/
theorem r3 (c : Dev nD) (hs : SrcOk m c) : W11 (F := Ideal) m ρ c (Proc.devRef .tc main_v49) = Cert.ReferenceIdeal.ReadP.val_main_v91 (F := Ideal) (aX m c) (aE m c) (aW1 m c) (aB1 m c) (aW2 m c) (aB2 m c) := by
  refine (W11_arr m ρ c 2).trans ((region3_array (V10 m ρ) c).trans ?_)
  dsimp only [V10]
  rw [a2 m ρ c hs, b2 m ρ c]
  exact st_r3 _ _ _ _ _ _

/-- Region 4: `h2 · Wfc`. -/
theorem r4 (c : Dev nD) (hs : SrcOk m c) : W12 (F := Ideal) m ρ c (Proc.devRef .tc main_v50) = Cert.ReferenceIdeal.ReadP.val_main_v92 (F := Ideal) (aX m c) (aE m c) (aW1 m c) (aB1 m c) (aW2 m c) (aB2 m c) (aWf m c) := by
  refine (W12_arr m ρ c 2).trans ((region4_array (V11 m ρ) c).trans ?_)
  show Host.dotGeneral (F := Ideal) (φ₁ := .f32) (φ₂ := .f32) _ none (W11 (F := Ideal) m ρ c (Proc.devRef .tc main_v49)) (W11 (F := Ideal) m ρ c (Proc.devRef .tc main_arg6)) = _
  rw [r3 m ρ c hs, arg6_W11 m ρ c]
  exact st_r4 _ _ _ _ _ _ _

/-- The output bias as a row. -/
theorem bfr (c : Dev nD) : W13 (F := Ideal) m ρ c (Proc.devRef .tc main_v51) = Cert.ReferenceIdeal.ReadP.val_main_v93 (F := Ideal) (aBf m c) := by
  refine (bf_read m ρ c).trans ?_
  rw [arg7_W12 m ρ c]
  exact (bias_row2 _).trans (st_bf _)

/-- Region 5, the program's result: `h2 · Wfc + bfc`, the reference's result as a function of the arguments. -/
theorem r5 (c : Dev nD) (hs : SrcOk m c) : W14 (F := Ideal) m ρ c (Proc.devRef .tc main_v52) = Cert.ReferenceIdeal.ReadP.val_main_v95 (F := Ideal) (aX m c) (aE m c) (aW1 m c) (aB1 m c) (aW2 m c) (aB2 m c) (aWf m c) (aBf m c) := by
  refine (W14_arr m ρ c 2).trans ((region5_array (V13 m ρ) c).trans ?_)
  show addf (F := Ideal) (φ := .f32) (W13 (F := Ideal) m ρ c (Proc.devRef .tc main_v50)) (broadcastInDim _ _ _ (W13 (F := Ideal) m ρ c (Proc.devRef .tc main_v51))) = _
  rw [v50_W13 m ρ c, r4 m ρ c hs, bfr m ρ c]
  exact st_r5 _ _ _ _ _ _ _ _

end Cert.Bridge
end
-- ==== Proof.lean ====
/- The certificate of a two-layer graph convolution with a linear read-out: the kernel program computes its three
   matrix products and its three bias stages (two of them clamped at zero) in Pallas regions, blocks of 20000 rows at a
   time, and gathers and scatter-adds on the host; the reference does everything on the host.

   * Frames. The kernel programs' are the generated ones. The reference's is its run with the result dropped.
   * `preserves`: the ideal pass rewrote nothing.
   * `algebraic`. Over the extended reals a block of rows of `h · W` is the block of the whole product, a bf16 rounding is
     the identity, and the bias stage is pointwise, so each region's result array is the reference's stage
     (Proof/MatmulRegions.lean, Proof/BiasRegions.lean). The host operations between the regions are the reference's, but
     for the gather of `h[s]`: the kernel program's replaces a row whose index is outside `[0, 200000)` by a fill, the
     reference's clamps the index. The precondition puts every entry of `edge_index` in `[0, 200000)`
     (Proof/IndexRange.lean), the self-loop indices are there by construction, and then the mask is all ones and the
     two gathers agree (Proof/TakeInRange.lean). Buffer by buffer, in program order, the kernel program's contents are the
     reference's stages of the arguments (Proof/Chain.lean), the result included. -/
import proofs.«423043_j71803263254611_2_alg».proof.Defs
import proofs.«423043_j71803263254611_2_alg».proof.Proof.Gen.Kernel
import proofs.«423043_j71803263254611_2_alg».proof.Proof.Gen.Kernel.Frame
import proofs.«423043_j71803263254611_2_alg».proof.Proof.Gen.KernelIdeal
import proofs.«423043_j71803263254611_2_alg».proof.Proof.Gen.KernelIdeal.Frame
import proofs.«423043_j71803263254611_2_alg».proof.Proof.Gen.ReferenceIdeal
import proofs.«423043_j71803263254611_2_alg».proof.Proof.Gen.Pre_finite_inputs
import proofs.«423043_j71803263254611_2_alg».proof.Proof.KernelRun
import proofs.«423043_j71803263254611_2_alg».proof.Proof.RefRun
import proofs.«423043_j71803263254611_2_alg».proof.Proof.RefRead
import proofs.«423043_j71803263254611_2_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the arguments in their result array. -/
theorem algebraic : Cert.algebraic_KernelIdeal_ReferenceIdeal := by
  intro m ρ m' ρ' hpre hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.r5 m ρ c (Cert.Bridge.srcOk_of_pre m hpre c)), (h c).2⟩)
      (Cert.KernelIdeal.GenRun.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v95_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
